-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S2048x1x1 : Shape := ⟨3, ![2048, 1, 1]⟩
abbrev S_ : Shape := ⟨0, ![]⟩
abbrev S2047x1x1 : Shape := ⟨3, ![2047, 1, 1]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S2048x1x1 : S_.BroadcastsInDim S2048x1x1 (![] : Fin 0 → Fin S2048x1x1.rank)
  reducesTo_S2048x1x1_S_d0_1_2 : S2048x1x1.ReducesTo [0, 1, 2] S_
  slices_S2048x1x1_S2047x1x1_1_0_0 : S2048x1x1.Slices ![1, 0, 0] S2047x1x1
  slices_S2048x1x1_S2047x1x1_0_0_0 : S2048x1x1.Slices ![0, 0, 0] S2047x1x1
  reducesTo_S2047x1x1_S_d0_1_2 : S2047x1x1.ReducesTo [0, 1, 2] S_

variable [Facts]

def fn_part1 {F : FTy → Type} [FloatOps F] (main_arg3 : FVec F S2048x1x1 .f32) (main_v13 : IVec S_ 1) (main_v16 : IVec S2048x1x1 1) : IVec S_ 1 :=
  let main_c_5 : IVec S_ 1 := constantI S_ 1 1#1
  let main_v17 : IVec S_ 1 := (fun x v => Host.reduce IntOp.andi x v reducesTo_S2048x1x1_S_d0_1_2 h_S_) main_v16 main_c_5
  let main_v18 : IVec S_ 1 := andi main_v13 main_v17
  let main_v19 : FVec F S2047x1x1 .f32 := (extractStridedSlice S2047x1x1 ![1, 0, 0] · slices_S2048x1x1_S2047x1x1_1_0_0) main_arg3
  let main_v20 : FVec F S2047x1x1 .f32 := (extractStridedSlice S2047x1x1 ![0, 0, 0] · slices_S2048x1x1_S2047x1x1_0_0_0) main_arg3
  let main_v21 : FVec F S2047x1x1 .f32 := subf main_v19 main_v20
  let main_v22 : FVec F S2047x1x1 .f32 := Host.absf main_v21
  let main_cst_6 : FVec F S_ .f32 := constant S_ .f32 0x00000000#32
  let main_v23 : FVec F S_ .f32 := (fun x v => Host.reduceAdd x v reducesTo_S2047x1x1_S_d0_1_2 h_S_) main_v22 main_cst_6
  let main_cst_7 : FVec F S_ .f32 := constant S_ .f32 0x00000000#32
  let main_v24 : IVec S_ 1 := cmpf .ogt main_v23 main_cst_7
  let main_v25 : IVec S_ 1 := andi main_v18 main_v24
  main_v25

def fn {F : FTy → Type} [FloatOps F] (main_arg0 : FVec F S2x8x2048x64 .f32) (main_arg1 : FVec F S2x8x2048x64 .f32) (main_arg2 : FVec F S2x8x2048x64 .f32) (main_arg3 : FVec F S2048x1x1 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S2048x1x1 .f32 := Host.absf main_arg3
  let main_cst_4 : FVec F S_ .f32 := constant S_ .f32 0x7F800000#32
  let main_v15 : FVec F S2048x1x1 .f32 := broadcastInDim S2048x1x1 ![] bcast_S_S2048x1x1 main_cst_4
  let main_v16 : IVec S2048x1x1 1 := cmpf .olt main_v14 main_v15
  fn_part1 (F := F) main_arg3 main_v13 main_v16
-- ==== Kernel.lean ====
abbrev S2x8x2048x64 : Shape := ⟨4, ![2, 8, 2048, 64]⟩
abbrev S2048x1x1 : Shape := ⟨3, ![2048, 1, 1]⟩
abbrev S2047x1x1 : Shape := ⟨3, ![2047, 1, 1]⟩
abbrev S2047 : Shape := ⟨1, ![2047]⟩
abbrev S_ : Shape := ⟨0, ![]⟩
abbrev S1 : Shape := ⟨1, ![1]⟩
abbrev S2048 : Shape := ⟨1, ![2048]⟩
abbrev S1x2048 : Shape := ⟨2, ![1, 2048]⟩
abbrev S16x2048x64 : Shape := ⟨3, ![16, 2048, 64]⟩
abbrev S16x2048x1 : Shape := ⟨3, ![16, 2048, 1]⟩
abbrev S16x2048x65 : Shape := ⟨3, ![16, 2048, 65]⟩
abbrev S1x512x64 : Shape := ⟨3, ![1, 512, 64]⟩
abbrev S1x2048x64 : Shape := ⟨3, ![1, 2048, 64]⟩
abbrev S1x2048x65 : Shape := ⟨3, ![1, 2048, 65]⟩
abbrev S512x64 : Shape := ⟨2, ![512, 64]⟩
abbrev S2048x64 : Shape := ⟨2, ![2048, 64]⟩
abbrev S2048x65 : Shape := ⟨2, ![2048, 65]⟩
abbrev S512x2048 : Shape := ⟨2, ![512, 2048]⟩
abbrev S512 : Shape := ⟨1, ![512]⟩
abbrev S512x1 : Shape := ⟨2, ![512, 1]⟩
abbrev S512x65 : Shape := ⟨2, ![512, 65]⟩

abbrev nBuf : Space → Nat
  | .hbm => 31
  | .vmem => 9
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2048x1x1, .f32⟩
  | .hbm, ⟨4, _⟩ => ⟨S2047x1x1, .f32⟩
  | .hbm, ⟨5, _⟩ => ⟨S2047x1x1, .f32⟩
  | .hbm, ⟨6, _⟩ => ⟨S2047x1x1, .f32⟩
  | .hbm, ⟨7, _⟩ => ⟨S2047x1x1, .f32⟩
  | .hbm, ⟨8, _⟩ => ⟨S2047, .f32⟩
  | .hbm, ⟨9, _⟩ => ⟨S_, .f32⟩
  | .hbm, ⟨10, _⟩ => ⟨S1, .f32⟩
  | .hbm, ⟨11, _⟩ => ⟨S2048, .f32⟩
  | .hbm, ⟨12, _⟩ => ⟨S_, .f32⟩
  | .hbm, ⟨13, _⟩ => ⟨S1, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S16x2048x64, .f32⟩
  | .hbm, ⟨22, _⟩ => ⟨S16x2048x64, .f32⟩
  | .hbm, ⟨23, _⟩ => ⟨S16x2048x64, .bf16⟩
  | .hbm, ⟨24, _⟩ => ⟨S_, .f32⟩
  | .hbm, ⟨25, _⟩ => ⟨S16x2048x1, .f32⟩
  | .hbm, ⟨26, _⟩ => ⟨S16x2048x64, .f32⟩
  | .hbm, ⟨27, _⟩ => ⟨S16x2048x65, .f32⟩
  | .hbm, ⟨28, _⟩ => ⟨S16x2048x65, .bf16⟩
  | .hbm, ⟨29, _⟩ => ⟨S16x2048x64, .f32⟩
  | .hbm, ⟨30, _⟩ => ⟨S2x8x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .bf16⟩
  | .local _ .vmem, ⟨3, _⟩ => ⟨S1x2048x64, .bf16⟩
  | .local _ .vmem, ⟨4, _⟩ => ⟨S1x2048x65, .bf16⟩
  | .local _ .vmem, ⟨5, _⟩ => ⟨S1x2048x65, .bf16⟩
  | .local _ .vmem, ⟨6, _⟩ => ⟨S1x2048, .f32⟩
  | .local _ .vmem, ⟨7, _⟩ => ⟨S1x512x64, .f32⟩
  | .local _ .vmem, ⟨8, _⟩ => ⟨S1x512x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x65 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S2048x1x1_S2047x1x1_1_0_0 : S2048x1x1.Slices ![1, 0, 0] S2047x1x1
  slices_S2048x1x1_S2047x1x1_0_0_0 : S2048x1x1.Slices ![0, 0, 0] S2047x1x1
  shapeCasts_S2047x1x1_S2047 : S2047x1x1.ShapeCasts S2047
  bcast_S_S1 : S_.BroadcastsInDim S1 (![] : Fin 0 → Fin S1.rank)
  concatenates_S1_S2047_S2048_d0 : Shape.Concatenates [S1, S2047] S2048 0
  concatenates_S2047_S1_S2048_d0 : Shape.Concatenates [S2047, S1] S2048 0
  bcast_S_S2048 : S_.BroadcastsInDim S2048 (![] : Fin 0 → Fin S2048.rank)
  shapeCasts_S2048_S1x2048 : S2048.ShapeCasts S1x2048
  shapeCasts_S2x8x2048x64_S16x2048x64 : S2x8x2048x64.ShapeCasts S16x2048x64
  bitsLt_bf16_f32 : FTy.bits .bf16 < FTy.bits .f32
  bcast_S_S16x2048x1 : S_.BroadcastsInDim S16x2048x1 (![] : Fin 0 → Fin S16x2048x1.rank)
  concatenates_S16x2048x64_S16x2048x1_S16x2048x65_d2 : Shape.Concatenates [S16x2048x64, S16x2048x1] S16x2048x65 2
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x65_S1x2048x65_0_0_0 : ∀ a, (![0, 0, 0] : Fin 3 → Nat) a + S1x2048x65.size a ≤ S1x2048x65.size a
  h_S1x2048x65 : 0 < S1x2048x65.numel
  shapeCasts_S1x2048x65_S2048x65 : S1x2048x65.ShapeCasts S2048x65
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x2048_S512 : S512x2048.Reduces [1] S512
  shapeCasts_S512_S512x1 : S512.ShapeCasts S512x1
  broadcasts_S512x1_S512x2048 : S512x1.Broadcasts S512x2048
  broadcasts_S1x2048_S512x2048 : S1x2048.Broadcasts S512x2048
  slices_S512x65_o0_0_S512x64 : S512x65.Slices ![0, 0] S512x64
  slices_S512x65_o0_64_S512x1 : S512x65.Slices ![0, 64] S512x1
  broadcasts_S512x1_S512x64 : S512x1.Broadcasts S512x64
  shapeCasts_S512x64_S1x512x64 : S512x64.ShapeCasts S1x512x64
  shapeCasts_S16x2048x64_S2x8x2048x64 : S16x2048x64.ShapeCasts S2x8x2048x64
  dot_S512x64_S2048x64_S512x2048_1_1_0_0_n_n_wf : DotDims.WF S512x64 S2048x64 S512x2048 [1] [1] [0] [0] [] []
  dot_S512x2048_S2048x65_S512x65_1_0_0_1_n_n_wf : DotDims.WF S512x2048 S2048x65 S512x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .bf16 = 32 ∨ (Rect.block (s := S16x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x65.size a ≤ S16x2048x65.size a
  hwx0_2 : ∀ i : grid0.Coords, EltTy.bits .bf16 = 32 ∨ (Rect.block (s := S16x2048x65) S1x2048x65.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x65_S512x65_1_0_0_1_n_n : DotDims S512x2048 S2048x65 S512x65 where
  lhsContracting := [1]
  rhsContracting := [0]
  lhsNonContracting := [0]
  rhsNonContracting := [1]
  lhsBatch := []
  rhsBatch := []
  wf := dot_S512x2048_S2048x65_S512x65_1_0_0_1_n_n_wf

abbrev win0_0 : Pipeline.Window sig grid0 :=
  Pipeline.Window.ofSpec (Memref.whole main_v14) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x2048x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S2048x1x1 : Shape := ⟨3, ![2048, 1, 1]⟩
abbrev S_ : Shape := ⟨0, ![]⟩
abbrev S2x8x2048x2048 : Shape := ⟨4, ![2, 8, 2048, 2048]⟩
abbrev S2047x1x1 : Shape := ⟨3, ![2047, 1, 1]⟩
abbrev S1x1x2047 : Shape := ⟨3, ![1, 1, 2047]⟩
abbrev S1x1x1x2047 : Shape := ⟨4, ![1, 1, 1, 2047]⟩
abbrev S2x8x2048 : Shape := ⟨3, ![2, 8, 2048]⟩
abbrev S2x8x2048x1 : Shape := ⟨4, ![2, 8, 2048, 1]⟩
abbrev S2x8x2048x2047 : Shape := ⟨4, ![2, 8, 2048, 2047]⟩
abbrev S1x1x2047x1 : Shape := ⟨4, ![1, 1, 2047, 1]⟩
abbrev S2x8x2047x64 : Shape := ⟨4, ![2, 8, 2047, 64]⟩

abbrev nBuf : Space → Nat
  | .hbm => 49
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2048x1x1, .f32⟩
  | .hbm, ⟨4, _⟩ => ⟨S_, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2x8x2048x2048, .f32⟩
  | .hbm, ⟨9, _⟩ => ⟨S2047x1x1, .f32⟩
  | .hbm, ⟨10, _⟩ => ⟨S2047x1x1, .f32⟩
  | .hbm, ⟨11, _⟩ => ⟨S2047x1x1, .f32⟩
  | .hbm, ⟨12, _⟩ => ⟨S2047x1x1, .f32⟩
  | .hbm, ⟨13, _⟩ => ⟨S1x1x2047, .f32⟩
  | .hbm, ⟨14, _⟩ => ⟨S1x1x1x2047, .f32⟩
  | .hbm, ⟨15, _⟩ => ⟨S_, .f32⟩
  | .hbm, ⟨16, _⟩ => ⟨S2x8x2048, .f32⟩
  | .hbm, ⟨17, _⟩ => ⟨S2x8x2048x1, .f32⟩
  | .hbm, ⟨18, _⟩ => ⟨S2x8x2048x2048, .f32⟩
  | .hbm, ⟨19, _⟩ => ⟨S2x8x2048x2048, .f32⟩
  | .hbm, ⟨20, _⟩ => ⟨S2x8x2048x2048, .f32⟩
  | .hbm, ⟨21, _⟩ => ⟨S_, .f32⟩
  | .hbm, ⟨22, _⟩ => ⟨S1x1x1x2047, .f32⟩
  | .hbm, ⟨23, _⟩ => ⟨S1x1x1x2047, .f32⟩
  | .hbm, ⟨24, _⟩ => ⟨S2x8x2048x2047, .f32⟩
  | .hbm, ⟨25, _⟩ => ⟨S2x8x2048x2047, .f32⟩
  | .hbm, ⟨26, _⟩ => ⟨S2x8x2048x2047, .f32⟩
  | .hbm, ⟨27, _⟩ => ⟨S2x8x2048x2047, .f32⟩
  | .hbm, ⟨28, _⟩ => ⟨S2x8x2048x2047, .f32⟩
  | .hbm, ⟨29, _⟩ => ⟨S_, .f32⟩
  | .hbm, ⟨30, _⟩ => ⟨S2x8x2048, .f32⟩
  | .hbm, ⟨31, _⟩ => ⟨S2x8x2048x1, .f32⟩
  | .hbm, ⟨32, _⟩ => ⟨S2x8x2048x2048, .f32⟩
  | .hbm, ⟨33, _⟩ => ⟨S2x8x2048x2048, .f32⟩
  | .hbm, ⟨34, _⟩ => ⟨S1x1x2047x1, .f32⟩
  | .hbm, ⟨35, _⟩ => ⟨S2x8x2048x2047, .f32⟩
  | .hbm, ⟨36, _⟩ => ⟨S2x8x2047x64, .f32⟩
  | .hbm, ⟨37, _⟩ => ⟨S2x8x2047x64, .f32⟩
  | .hbm, ⟨38, _⟩ => ⟨S2x8x2047x64, .f32⟩
  | .hbm, ⟨39, _⟩ => ⟨S2x8x2048x64, .f32⟩
  | .hbm, ⟨40, _⟩ => ⟨S2x8x2048x2047, .f32⟩
  | .hbm, ⟨41, _⟩ => ⟨S2x8x2047x64, .f32⟩
  | .hbm, ⟨42, _⟩ => ⟨S2x8x2047x64, .f32⟩
  | .hbm, ⟨43, _⟩ => ⟨S2x8x2047x64, .f32⟩
  | .hbm, ⟨44, _⟩ => ⟨S2x8x2048x64, .f32⟩
  | .hbm, ⟨45, _⟩ => ⟨S2x8x2048x64, .f32⟩
  | .hbm, ⟨46, _⟩ => ⟨S_, .f32⟩
  | .hbm, ⟨47, _⟩ => ⟨S2x8x2048x64, .f32⟩
  | .hbm, ⟨48, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  slices_S2048x1x1_S2047x1x1_1_0_0 : S2048x1x1.Slices ![1, 0, 0] S2047x1x1
  slices_S2048x1x1_S2047x1x1_0_0_0 : S2048x1x1.Slices ![0, 0, 0] S2047x1x1
  transposes_S2047x1x1_S1x1x2047_1_2_0 : S2047x1x1.Transposes [1, 2, 0] S1x1x2047
  bcast_S1x1x2047_S1x1x1x2047_1_2_3 : S1x1x2047.BroadcastsInDim S1x1x1x2047 (![1, 2, 3] : Fin 3 → Fin S1x1x1x2047.rank)
  reducesTo_S2x8x2048x2048_S2x8x2048_d3 : S2x8x2048x2048.ReducesTo [3] S2x8x2048
  h_S_ : 0 < S_.numel
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  bcast_S_S1x1x1x2047 : S_.BroadcastsInDim S1x1x1x2047 (![] : Fin 0 → Fin S1x1x1x2047.rank)
  slices_S2x8x2048x2048_S2x8x2048x2047_0_0_0_1 : S2x8x2048x2048.Slices ![0, 0, 0, 1] S2x8x2048x2047
  slices_S2x8x2048x2048_S2x8x2048x2047_0_0_0_0 : S2x8x2048x2048.Slices ![0, 0, 0, 0] S2x8x2048x2047
  bcast_S1x1x1x2047_S2x8x2048x2047_0_1_2_3 : S1x1x1x2047.BroadcastsInDim S2x8x2048x2047 (![0, 1, 2, 3] : Fin 4 → Fin S2x8x2048x2047.rank)
  reducesTo_S2x8x2048x2047_S2x8x2048_d3 : S2x8x2048x2047.ReducesTo [3] S2x8x2048
  transposes_S1x1x1x2047_S1x1x2047x1_0_1_3_2 : S1x1x1x2047.Transposes [0, 1, 3, 2] S1x1x2047x1
  slices_S2x8x2048x64_S2x8x2047x64_0_0_1_0 : S2x8x2048x64.Slices ![0, 0, 1, 0] S2x8x2047x64
  bcast_S1x1x2047x1_S2x8x2047x64_0_1_2_3 : S1x1x2047x1.BroadcastsInDim S2x8x2047x64 (![0, 1, 2, 3] : Fin 4 → Fin S2x8x2047x64.rank)
  slices_S2x8x2048x64_S2x8x2047x64_0_0_0_0 : S2x8x2048x64.Slices ![0, 0, 0, 0] S2x8x2047x64
  bcast_S_S2x8x2048x64 : S_.BroadcastsInDim S2x8x2048x64 (![] : Fin 0 → Fin S2x8x2048x64.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2047_S2x8x2047x64_S2x8x2048x64_3_2_2_3_01_01_wf : DotDims.WF S2x8x2048x2047 S2x8x2047x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2047_S2x8x2047x64_S2x8x2048x64_3_2_2_3_01_01 : DotDims S2x8x2048x2047 S2x8x2047x64 S2x8x2048x64 where
  lhsContracting := [3]
  rhsContracting := [2]
  lhsNonContracting := [2]
  rhsNonContracting := [3]
  lhsBatch := [0, 1]
  rhsBatch := [0, 1]
  wf := dot_S2x8x2048x2047_S2x8x2047x64_S2x8x2048x64_3_2_2_3_01_01_wf

class Facts : Prop extends Facts₀ where

variable [Facts]
-- ==== Proof.Spec.lean ====
/-
  The mathematics of this certificate, stated with no program in sight.

  One attention head (b, h), one query row l, one output column d.  With scores s_j (a row of q·kᵀ, scaled), their
  maximum M over the 2048 keys and e_j = exp (s_j - M), the trapezoid rule over the key axis with interval widths
  δ_i = |c (i+1) - c i| (i < 2047) gives

    reference:  D = ∑ i, (½ δ_i) (e (i+1) + e i),    out = ½ (∑ i, (e (i+1) / D) (δ_i v (i+1)) + ∑ i, (e i / D) (δ_i v i))
    kernel:     w_j = ½ (δ (j-1) + δ j)  (a missing neighbour counts 0),   p_j = exp ((s_j - M) + log w_j),
                out = (∑ j, p_j v_j) / (∑ j, p_j · 1)

  Every key j is the right end of interval j-1 and the left end of interval j, so ∑ j, w_j f j = ∑ i, ½ δ_i (f (i+1) + f i):
  both denominators are ∑ j, w_j e_j and both numerators ∑ j, w_j e_j v_j.  exp (x + log w) = w · exp x for every real
  w ≥ 0 (log 0 = -∞ and exp (-∞) = 0 on the extended reals).  The quotient is taken by a denominator that is not zero
  exactly when some δ_i is not zero, that is, when c is not constant.

  The functions below are the two sides as the programs compute them, operation for operation, over curried
  coordinates; the literals are kept as the 32-bit words the programs carry.
-/
import Idealize.ShloMosaic.PureOps.Ideal

noncomputable section

namespace Cert.TrapAttn

open Idealize.ShloMosaic

/-- The programs' float literals, as extended reals: 1/2, 1/8, 1, -∞ and 64. -/
def half : EReal := Ideal.ofBits .f32 0x3F000000#32
def eighth : EReal := Ideal.ofBits .f32 0x3E000000#32
def one : EReal := Ideal.ofBits .f32 0x3F800000#32
def negInf : EReal := Ideal.ofBits .f32 0xFF800000#32
def sixtyFour : EReal := Ideal.ofBits .f32 0x42800000#32

/-- An array of shape [2, 8, 2048, 64] and the coordinate vector, by coordinates. -/
abbrev Arr4 := Fin 2 → Fin 8 → Fin 2048 → Fin 64 → EReal
abbrev Coords := Fin 2048 → EReal

/-- The width of interval i: |c (i+1) - c i|. -/
def width (c : Coords) (i : Fin 2047) : EReal := max (c i.succ - c i.castSucc) (-(c i.succ - c i.castSucc))

/-! ## The kernel's side -/

/-- Key j's weight: half the sum of the widths of the intervals it ends (none to the left of key 0, none to the
    right of key 2047). -/
def weight (c : Coords) (j : Fin 2048) : EReal :=
  half * ((if h : j.val = 0 then 0 else width c ⟨j.val - 1, by omega⟩)
        + (if h : j.val < 2047 then width c ⟨j.val, h⟩ else 0))

/-- The kernel's score: the query row scaled by 1/8, against key j. -/
def scoreK (q k : Arr4) (b : Fin 2) (h : Fin 8) (l j : Fin 2048) : EReal :=
  ∑ d : Fin 64, (q b h l d * eighth) * k b h j d

def maxK (q k : Arr4) (b : Fin 2) (h : Fin 8) (l : Fin 2048) : EReal :=
  (Finset.univ : Finset (Fin 2048)).fold max negInf (fun j => scoreK q k b h l j)

/-- The kernel's unnormalised probability, the weight folded into the exponent. -/
def probK (q k : Arr4) (c : Coords) (b : Fin 2) (h : Fin 8) (l j : Fin 2048) : EReal :=
  Ideal.exp ((scoreK q k b h l j - maxK q k b h l) + Ideal.log (weight c j))

/-- The kernel's result: the value sum over the sum against the appended column of ones. -/
def kernelOut (q k v : Arr4) (c : Coords) (b : Fin 2) (h : Fin 8) (l : Fin 2048) (d : Fin 64) : EReal :=
  Ideal.div (∑ j : Fin 2048, probK q k c b h l j * v b h j d) (∑ j : Fin 2048, probK q k c b h l j * one)

/-! ## The reference's side -/

/-- The reference's score: the product divided by √64. -/
def scoreR (q k : Arr4) (b : Fin 2) (h : Fin 8) (l j : Fin 2048) : EReal :=
  Ideal.div (∑ d : Fin 64, q b h l d * k b h j d) (Ideal.sqrt sixtyFour)

def maxR (q k : Arr4) (b : Fin 2) (h : Fin 8) (l : Fin 2048) : EReal :=
  (Finset.univ : Finset (Fin 2048)).fold max negInf (fun j => scoreR q k b h l j)

def expR (q k : Arr4) (b : Fin 2) (h : Fin 8) (l j : Fin 2048) : EReal :=
  Ideal.exp (scoreR q k b h l j - maxR q k b h l)

/-- The trapezoid-rule denominator. -/
def denomR (q k : Arr4) (c : Coords) (b : Fin 2) (h : Fin 8) (l : Fin 2048) : EReal :=
  ∑ i : Fin 2047, (half * width c i) * (expR q k b h l i.succ + expR q k b h l i.castSucc)

def attnR (q k : Arr4) (c : Coords) (b : Fin 2) (h : Fin 8) (l j : Fin 2048) : EReal :=
  Ideal.div (expR q k b h l j) (denomR q k c b h l)

/-- The reference's result: half the sum of the two one-sided value sums. -/
def refOut (q k v : Arr4) (c : Coords) (b : Fin 2) (h : Fin 8) (l : Fin 2048) (d : Fin 64) : EReal :=
  half * ((∑ i : Fin 2047, attnR q k c b h l i.succ * (width c i * v b h i.succ d))
        + (∑ i : Fin 2047, attnR q k c b h l i.castSucc * (width c i * v b h i.castSucc d)))

/-- Every entry a real number. -/
def Finite4 (a : Arr4) : Prop := ∀ b h l d, ∃ r : ℝ, a b h l d = (r : EReal)
def FiniteC (c : Coords) : Prop := ∀ j, ∃ r : ℝ, c j = (r : EReal)
/-- The coordinates are not all equal: some interval has a width. -/
def NotConstant (c : Coords) : Prop := ∃ i : Fin 2047, c i.succ ≠ c i.castSucc

end Cert.TrapAttn

end
-- ==== Proof.SpecLaw.lean ====
/-
  The algebraic law that joins the two sides of Spec.lean: for real inputs and coordinates that are not constant,
  the kernel's quotient and the reference's half-sum are the same extended real.

  Every intermediate is the coercion of a real number.  Both scores are S_j = (∑ d, Q d · K j d) / 8; the running
  maximum from -∞ of the S_j over the 2048 keys is one real M, the same on both sides; e_j = exp (S_j - M) > 0; the
  widths are δ_i = |C (i+1) - C i| ≥ 0 and the weights w_j = ½ (δ (j-1) + δ j) ≥ 0; exp ((S_j - M) + log w_j) is
  w_j · e_j, at w_j = 0 through log 0 = -∞ and exp (-∞) = 0.  Every key is the right end of one interval and the
  left end of the next, so ∑ j, w_j f j = ∑ i, ½ δ_i (f (i+1) + f i) for every f: with f = e both denominators are
  the one real D, which is positive because some δ_i is and every e_j is; with f = e · v both numerators agree.  The
  two divisions are then products with 1 / D and the rest is real algebra.
-/
import proofs.«413024_j36490042147144_3_alg».proof.Proof.Spec

noncomputable section

namespace Cert.TrapAttn

open Idealize.ShloMosaic

/-! ## The five literals, as reals -/

theorem half_eq : half = ((1/2 : ℝ) : EReal) := by
  simp [half, Ideal.ofBits, Ideal.ieee, -EReal.coe_mul]; norm_num

theorem eighth_eq : eighth = ((1/8 : ℝ) : EReal) := by
  simp [eighth, Ideal.ofBits, Ideal.ieee, -EReal.coe_mul]; norm_num

theorem one_eq : one = ((1 : ℝ) : EReal) := by
  simp [one, Ideal.ofBits, Ideal.ieee, -EReal.coe_mul]; norm_num

theorem negInf_eq : negInf = ⊥ := by
  simp [negInf, Ideal.ofBits, Ideal.ieee]

theorem sixtyFour_eq : sixtyFour = ((64 : ℝ) : EReal) := by
  simp [sixtyFour, Ideal.ofBits, Ideal.ieee, -EReal.coe_mul]; norm_num

/-- √64 = 8. -/
theorem sqrt_sixtyFour : Ideal.sqrt sixtyFour = ((8 : ℝ) : EReal) := by
  rw [sixtyFour_eq, Ideal.sqrt_coe, if_neg (by norm_num)]
  congr 1
  rw [show (64 : ℝ) = 8 ^ 2 by norm_num]
  exact Real.sqrt_sq (by norm_num)

/-! ## Coercions through sums and maxima -/

/-- A finite sum of real numbers, taken in the extended reals, is the real sum. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The running maximum from -∞ of real numbers over a non-empty index set is a real number. -/
theorem fold_max_coe {ι : Type} (s : Finset ι) (hs : s.Nonempty) (f : ι → ℝ) :
    ∃ M : ℝ, s.fold max ⊥ (fun j => (f j : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- exp (x + log w) = w · exp x for every real w ≥ 0, the case w = 0 through log 0 = -∞ and exp (-∞) = 0. -/
theorem exp_add_log (x w : ℝ) (hw : 0 ≤ w) :
    Ideal.exp ((x : EReal) + Ideal.log (w : EReal)) = ((w * Real.exp x : ℝ) : EReal) := by
  rcases hw.eq_or_lt with h | h
  · subst h
    rw [Ideal.log_coe, if_pos le_rfl, EReal.add_bot, Ideal.exp_bot, zero_mul, EReal.coe_zero]
  · rw [Ideal.log_coe, if_neg (not_le.mpr h), ← EReal.coe_add, Ideal.exp_coe, Real.exp_add, Real.exp_log h,
      mul_comm]

/-! ## The trapezoid weights over the reals, for any number of intervals -/

/-- Key j's weight from the interval widths δ: half the widths of the intervals it ends. -/
def wt {n : ℕ} (δ : Fin n → ℝ) (j : Fin (n + 1)) : ℝ :=
  1 / 2 * ((if h : j.val = 0 then 0 else δ ⟨j.val - 1, by omega⟩)
         + (if h : j.val < n then δ ⟨j.val, h⟩ else 0))

theorem wt_nonneg {n : ℕ} (δ : Fin n → ℝ) (hδ : ∀ i, 0 ≤ δ i) (j : Fin (n + 1)) : 0 ≤ wt δ j := by
  unfold wt
  refine mul_nonneg (by norm_num) (add_nonneg ?_ ?_)
  · split_ifs
    · exact le_rfl
    · exact hδ _
  · split_ifs
    · exact hδ _
    · exact le_rfl

/-- Every key is the right end of the interval before it and the left end of the interval after it:
    a weighted sum over the keys is the trapezoid sum over the intervals. -/
theorem sum_wt {n : ℕ} (δ : Fin n → ℝ) (f : Fin (n + 1) → ℝ) :
    ∑ j : Fin (n + 1), wt δ j * f j = ∑ i : Fin n, 1 / 2 * δ i * (f i.succ + f i.castSucc) := by
  have h1 : ∑ j : Fin (n + 1), (if h : j.val = 0 then 0 else δ ⟨j.val - 1, by omega⟩) * f j
      = ∑ i : Fin n, δ i * f i.succ := by
    rw [Fin.sum_univ_succ]
    simp
  have h2 : ∑ j : Fin (n + 1), (if h : j.val < n then δ ⟨j.val, h⟩ else 0) * f j
      = ∑ i : Fin n, δ i * f i.castSucc := by
    rw [Fin.sum_univ_castSucc]
    simp
  calc ∑ j : Fin (n + 1), wt δ j * f j
      = 1 / 2 * (∑ j : Fin (n + 1), (if h : j.val = 0 then 0 else δ ⟨j.val - 1, by omega⟩) * f j
          + ∑ j : Fin (n + 1), (if h : j.val < n then δ ⟨j.val, h⟩ else 0) * f j) := by
        rw [← Finset.sum_add_distrib, Finset.mul_sum]
        exact Finset.sum_congr rfl (fun j _ => by unfold wt; ring)
    _ = ∑ i : Fin n, 1 / 2 * δ i * (f i.succ + f i.castSucc) := by
        rw [h1, h2, ← Finset.sum_add_distrib, Finset.mul_sum]
        exact Finset.sum_congr rfl (fun i _ => by ring)

/-- The trapezoid sum is positive as soon as one interval has a width and every term is positive. -/
theorem trap_pos {n : ℕ} (δ : Fin n → ℝ) (e : Fin (n + 1) → ℝ) (hδ : ∀ i, 0 ≤ δ i) (he : ∀ j, 0 < e j)
    (i0 : Fin n) (h0 : 0 < δ i0) : 0 < ∑ i : Fin n, 1 / 2 * δ i * (e i.succ + e i.castSucc) := by
  apply Finset.sum_pos'
  · intro i _
    exact mul_nonneg (mul_nonneg (by norm_num) (hδ i)) (add_pos (he _) (he _)).le
  · exact ⟨i0, Finset.mem_univ _, mul_pos (mul_pos (by norm_num) h0) (add_pos (he _) (he _))⟩

/-- The two quotients over the reals: the weighted sum over the keys divided by the sum of the weights is half
    the sum of the two one-sided trapezoid sums, each term divided by the trapezoid denominator. -/
theorem trap_quotient {n : ℕ} (δ : Fin n → ℝ) (e w : Fin (n + 1) → ℝ) :
    (∑ j : Fin (n + 1), wt δ j * e j * w j) * (1 / ∑ j : Fin (n + 1), wt δ j * e j * 1)
      = 1 / 2 * ((∑ i : Fin n, e i.succ * (1 / ∑ i : Fin n, 1 / 2 * δ i * (e i.succ + e i.castSucc))
                    * (δ i * w i.succ))
               + (∑ i : Fin n, e i.castSucc * (1 / ∑ i : Fin n, 1 / 2 * δ i * (e i.succ + e i.castSucc))
                    * (δ i * w i.castSucc))) := by
  have hZ : ∑ j : Fin (n + 1), wt δ j * e j * 1 = ∑ i : Fin n, 1 / 2 * δ i * (e i.succ + e i.castSucc) := by
    simp only [mul_one]
    exact sum_wt δ e
  have hP : ∑ j : Fin (n + 1), wt δ j * e j * w j
      = ∑ i : Fin n, 1 / 2 * δ i * (e i.succ * w i.succ + e i.castSucc * w i.castSucc) :=
    (Finset.sum_congr rfl (fun j _ => mul_assoc _ _ _)).trans (sum_wt δ (fun j => e j * w j))
  rw [hZ, hP, ← Finset.sum_add_distrib, Finset.mul_sum, Finset.sum_mul]
  exact Finset.sum_congr rfl (fun i _ => by ring)

/-! ## The programs' intermediates as real numbers -/

/-- An array of shape [2, 8, 2048, 64] of real numbers. -/
abbrev RArr4 := Fin 2 → Fin 8 → Fin 2048 → Fin 64 → ℝ

/-- The real score: the row product over 8. -/
def sc (Q K : RArr4) (b : Fin 2) (h : Fin 8) (l j : Fin 2048) : ℝ :=
  (∑ d : Fin 64, Q b h l d * K b h j d) * (1 / 8)

/-- The real width of interval i. -/
def wd (C : Fin 2048 → ℝ) (i : Fin 2047) : ℝ := |C i.succ - C i.castSucc|

/-- The real exponential of the score against the row maximum M. -/
def ex (Q K : RArr4) (M : ℝ) (b : Fin 2) (h : Fin 8) (l j : Fin 2048) : ℝ := Real.exp (sc Q K b h l j - M)

/-- The real trapezoid denominator. -/
def den (Q K : RArr4) (C : Fin 2048 → ℝ) (M : ℝ) (b : Fin 2) (h : Fin 8) (l : Fin 2048) : ℝ :=
  ∑ i : Fin 2047, 1 / 2 * wd C i * (ex Q K M b h l i.succ + ex Q K M b h l i.castSucc)

section Coe

variable {q k v : Arr4} {c : Coords} {Q K V : RArr4} {C : Fin 2048 → ℝ}

theorem scoreK_coe (hq : ∀ b h l d, q b h l d = (Q b h l d : EReal)) (hk : ∀ b h l d, k b h l d = (K b h l d : EReal))
    (b : Fin 2) (h : Fin 8) (l j : Fin 2048) : scoreK q k b h l j = ((sc Q K b h l j : ℝ) : EReal) := by
  unfold scoreK sc
  simp only [hq, hk, eighth_eq, ← EReal.coe_mul]
  rw [coe_sum, Finset.sum_mul]
  congr 1
  exact Finset.sum_congr rfl (fun d _ => by ring)

theorem scoreR_coe (hq : ∀ b h l d, q b h l d = (Q b h l d : EReal)) (hk : ∀ b h l d, k b h l d = (K b h l d : EReal))
    (b : Fin 2) (h : Fin 8) (l j : Fin 2048) : scoreR q k b h l j = ((sc Q K b h l j : ℝ) : EReal) := by
  unfold scoreR sc
  simp only [hq, hk, ← EReal.coe_mul]
  rw [coe_sum, sqrt_sixtyFour, Ideal.div_coe (by norm_num), ← EReal.coe_mul]

/-- Both row maxima are one and the same real number. -/
theorem exists_max (hq : ∀ b h l d, q b h l d = (Q b h l d : EReal)) (hk : ∀ b h l d, k b h l d = (K b h l d : EReal))
    (b : Fin 2) (h : Fin 8) (l : Fin 2048) :
    ∃ M : ℝ, maxK q k b h l = (M : EReal) ∧ maxR q k b h l = (M : EReal) := by
  obtain ⟨M, hM⟩ := fold_max_coe (Finset.univ : Finset (Fin 2048)) Finset.univ_nonempty (fun j => sc Q K b h l j)
  refine ⟨M, ?_, ?_⟩
  · unfold maxK
    simp only [negInf_eq, scoreK_coe hq hk]
    exact hM
  · unfold maxR
    simp only [negInf_eq, scoreR_coe hq hk]
    exact hM

theorem width_coe (hc : ∀ j, c j = (C j : EReal)) (i : Fin 2047) : width c i = ((wd C i : ℝ) : EReal) := by
  unfold width wd
  rw [hc, hc, ← EReal.coe_sub, ← EReal.coe_neg, abs_eq_max_neg]
  exact (EReal.coe_strictMono.monotone.map_max).symm

theorem weight_coe (hc : ∀ j, c j = (C j : EReal)) (j : Fin 2048) :
    weight c j = ((wt (wd C) j : ℝ) : EReal) := by
  have hA : (if h : j.val = 0 then (0 : EReal) else width c ⟨j.val - 1, by omega⟩)
      = (((if h : j.val = 0 then (0 : ℝ) else wd C ⟨j.val - 1, by omega⟩) : ℝ) : EReal) := by
    split_ifs with h
    · exact EReal.coe_zero.symm
    · exact width_coe hc _
  have hB : (if h : j.val < 2047 then width c ⟨j.val, h⟩ else (0 : EReal))
      = (((if h : j.val < 2047 then wd C ⟨j.val, h⟩ else (0 : ℝ)) : ℝ) : EReal) := by
    split_ifs with h
    · exact width_coe hc _
    · exact EReal.coe_zero.symm
  unfold weight wt
  rw [hA, hB, half_eq, ← EReal.coe_add, ← EReal.coe_mul]

theorem probK_coe (hq : ∀ b h l d, q b h l d = (Q b h l d : EReal)) (hk : ∀ b h l d, k b h l d = (K b h l d : EReal))
    (hc : ∀ j, c j = (C j : EReal)) (b : Fin 2) (h : Fin 8) (l : Fin 2048) (M : ℝ)
    (hM : maxK q k b h l = (M : EReal)) (j : Fin 2048) :
    probK q k c b h l j = ((wt (wd C) j * ex Q K M b h l j : ℝ) : EReal) := by
  unfold probK ex
  rw [scoreK_coe hq hk, hM, weight_coe hc, ← EReal.coe_sub]
  exact exp_add_log _ _ (wt_nonneg _ (fun i => abs_nonneg _) j)

theorem expR_coe (hq : ∀ b h l d, q b h l d = (Q b h l d : EReal)) (hk : ∀ b h l d, k b h l d = (K b h l d : EReal))
    (b : Fin 2) (h : Fin 8) (l : Fin 2048) (M : ℝ) (hM : maxR q k b h l = (M : EReal)) (j : Fin 2048) :
    expR q k b h l j = ((ex Q K M b h l j : ℝ) : EReal) := by
  unfold expR ex
  rw [scoreR_coe hq hk, hM, ← EReal.coe_sub, Ideal.exp_coe]

theorem denomR_coe (hq : ∀ b h l d, q b h l d = (Q b h l d : EReal)) (hk : ∀ b h l d, k b h l d = (K b h l d : EReal))
    (hc : ∀ j, c j = (C j : EReal)) (b : Fin 2) (h : Fin 8) (l : Fin 2048) (M : ℝ)
    (hM : maxR q k b h l = (M : EReal)) :
    denomR q k c b h l = ((den Q K C M b h l : ℝ) : EReal) := by
  unfold denomR den
  simp only [expR_coe hq hk b h l M hM, width_coe hc, half_eq, ← EReal.coe_mul, ← EReal.coe_add]
  rw [coe_sum]

theorem attnR_coe (hq : ∀ b h l d, q b h l d = (Q b h l d : EReal)) (hk : ∀ b h l d, k b h l d = (K b h l d : EReal))
    (hc : ∀ j, c j = (C j : EReal)) (b : Fin 2) (h : Fin 8) (l : Fin 2048) (M : ℝ)
    (hM : maxR q k b h l = (M : EReal)) (hD : den Q K C M b h l ≠ 0) (j : Fin 2048) :
    attnR q k c b h l j = ((ex Q K M b h l j * (1 / den Q K C M b h l) : ℝ) : EReal) := by
  unfold attnR
  rw [expR_coe hq hk b h l M hM, denomR_coe hq hk hc b h l M hM, Ideal.div_coe hD, ← EReal.coe_mul]

end Coe

/-! ## The two results as real numbers, and their equality -/

theorem kernelOut_eq_refOut (q k v : Arr4) (c : Coords) (hq : Finite4 q) (hk : Finite4 k) (hv : Finite4 v) (hc : FiniteC c)
    (hne : NotConstant c) (b : Fin 2) (h : Fin 8) (l : Fin 2048) (d : Fin 64) :
    kernelOut q k v c b h l d = refOut q k v c b h l d := by
  have hq' : ∀ b h l d, ∃ r : ℝ, q b h l d = (r : EReal) := hq
  have hk' : ∀ b h l d, ∃ r : ℝ, k b h l d = (r : EReal) := hk
  have hv' : ∀ b h l d, ∃ r : ℝ, v b h l d = (r : EReal) := hv
  have hc' : ∀ j, ∃ r : ℝ, c j = (r : EReal) := hc
  choose Q hQ using hq'
  choose K hK using hk'
  choose V hV using hv'
  choose C hC using hc'
  obtain ⟨M, hMK, hMR⟩ := exists_max hQ hK b h l
  -- the trapezoid denominator is positive: some interval has a width, every exponential is positive
  obtain ⟨i0, hi0⟩ := hne
  have hi0' : 0 < wd C i0 := by
    unfold wd
    apply abs_pos.mpr
    intro h0
    apply hi0
    rw [hC, hC, sub_eq_zero.mp h0]
  have hDpos : 0 < den Q K C M b h l :=
    trap_pos (wd C) (fun j => ex Q K M b h l j) (fun i => abs_nonneg _) (fun j => Real.exp_pos _) i0 hi0'
  have hD : den Q K C M b h l ≠ 0 := hDpos.ne'
  -- the kernel's denominator is the same real number
  have hZ : ∑ j : Fin 2048, wt (wd C) j * ex Q K M b h l j * 1 = den Q K C M b h l := by
    simp only [mul_one]
    exact sum_wt (wd C) (fun j => ex Q K M b h l j)
  have hZ0 : ∑ j : Fin 2048, wt (wd C) j * ex Q K M b h l j * 1 ≠ 0 := by rw [hZ]; exact hD
  -- the kernel's side
  have hKer : kernelOut q k v c b h l d
      = (((∑ j : Fin 2048, wt (wd C) j * ex Q K M b h l j * V b h j d)
          * (1 / ∑ j : Fin 2048, wt (wd C) j * ex Q K M b h l j * 1) : ℝ) : EReal) := by
    unfold kernelOut
    simp only [probK_coe hQ hK hC b h l M hMK, hV, one_eq, ← EReal.coe_mul]
    rw [coe_sum, coe_sum, Ideal.div_coe hZ0, ← EReal.coe_mul]
  -- the reference's side
  have hRef : refOut q k v c b h l d
      = ((1 / 2 * ((∑ i : Fin 2047, ex Q K M b h l i.succ * (1 / den Q K C M b h l) * (wd C i * V b h i.succ d))
           + (∑ i : Fin 2047, ex Q K M b h l i.castSucc * (1 / den Q K C M b h l)
                * (wd C i * V b h i.castSucc d))) : ℝ) : EReal) := by
    unfold refOut
    simp only [attnR_coe hQ hK hC b h l M hMR hD, width_coe hC, hV, half_eq, ← EReal.coe_mul]
    rw [coe_sum, coe_sum, ← EReal.coe_add, ← EReal.coe_mul]
  rw [hKer, hRef]
  congr 1
  exact trap_quotient (wd C) (fun j => ex Q K M b h l j) (fun j => V b h j d)

end Cert.TrapAttn

end
-- ==== Proof.RefRead.lean ====
/-
  The reference program read at an index.  Each stage of the reference's result is read, at explicit coordinates,
  as the corresponding function of the specification: the scaled scores, their row maximum, the exponentials, the
  interval widths, the trapezoid denominator, the normalised weights, the two one-sided value sums, and the result.
-/
import proofs.«413024_j36490042147144_3_alg».proof.Proof.Spec
import proofs.«413024_j36490042147144_3_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.TrapAttn

/-- A [2, 8, 2048, 64] array by coordinates. -/
abbrev cur4 (x : FVec Ideal S2x8x2048x64 .f32) : Arr4 := fun b h l d => x (ix4 b h l d)
/-- The [2048, 1, 1] coordinate array as a vector. -/
abbrev cur1 (x : FVec Ideal S2048x1x1 .f32) : Coords := fun j => x (ix3 j 0 0)

/-! ## The scores and their row maximum -/

/-- The score of query row l against key j: the contraction over the 64 features, divided by √64. -/
theorem score_apply (x0 x1 : FVec Ideal S2x8x2048x64 .f32) (b : Fin 2) (h : Fin 8) (l j : Fin 2048) :
    val_main_v3 (F := Ideal) x0 x1 (ix4 b h l j) = scoreR (cur4 x0) (cur4 x1) b h l j := by
  rw [val_main_v3_apply, val_main_v1_apply, val_main_v2_apply, val_main_v0_apply, val_main_cst_apply]
  have el : ∀ k : Fin 64, lidx_main_v1 (ix4 b h l j) k = ix4 b h l k := fun k => funext fun a => Fin.ext (by
    match a with | ⟨0, _⟩ => rfl | ⟨1, _⟩ => rfl | ⟨2, _⟩ => rfl | ⟨3, _⟩ => rfl)
  have er : ∀ k : Fin 64, ridx_main_v1 (ix4 b h l j) k = ix4 b h j k := fun k => funext fun a => Fin.ext (by
    match a with | ⟨0, _⟩ => rfl | ⟨1, _⟩ => rfl | ⟨2, _⟩ => rfl | ⟨3, _⟩ => rfl)
  simp only [el, er]
  rfl

/-- The shape fact behind the row maximum's inserted index. -/
theorem reduces_d3 : S2x8x2048x2048.Reduces [3] S2x8x2048 := by decide

/-- The row maximum: the fold of max from -∞ over the 2048 keys. -/
theorem max_apply (x0 x1 : FVec Ideal S2x8x2048x64 .f32) (b : Fin 2) (h : Fin 8) (l : Fin 2048) :
    val_main_v10 (F := Ideal) x0 x1 (ix3 b h l) = maxR (cur4 x0) (cur4 x1) b h l := by
  unfold val_main_v10
  rw [Host.reduce_eq_fold_single FloatOps.maximumf _ _ Gen.reducesTo_S2x8x2048x2048_S2x8x2048_d3 reduces_d3 Gen.h_S_]
  have hf : (val_main_v3 (F := Ideal) x0 x1 ∘ reduces_d3.lift (ix3 b h l))
      = fun j : Fin 2048 => scoreR (cur4 x0) (cur4 x1) b h l j := funext fun j => by
    have e : reduces_d3.lift (ix3 b h l) j = ix4 b h l j := funext fun a => Fin.ext (by
      match a with | ⟨0, _⟩ => rfl | ⟨1, _⟩ => rfl | ⟨2, _⟩ => rfl | ⟨3, _⟩ => rfl)
    show val_main_v3 (F := Ideal) x0 x1 (reduces_d3.lift (ix3 b h l) j) = _
    rw [e]
    exact score_apply x0 x1 b h l j
  rw [hf]
  rfl

/-! ## The exponentials -/

/-- e_j = exp (s_j - M). -/
theorem exp_apply (x0 x1 : FVec Ideal S2x8x2048x64 .f32) (b : Fin 2) (h : Fin 8) (l j : Fin 2048) :
    val_main_v14 (F := Ideal) x0 x1 (ix4 b h l j) = expR (cur4 x0) (cur4 x1) b h l j := by
  rw [val_main_v14_apply, val_main_v13_apply, val_main_v12_apply, val_main_v11_apply]
  have e : idx_main_v11 (idx_main_v12 (ix4 b h l j)) = ix3 b h l := funext fun a => Fin.ext (by
    match a with | ⟨0, _⟩ => rfl | ⟨1, _⟩ => rfl | ⟨2, _⟩ => rfl)
  rw [e, score_apply, max_apply]
  rfl

/-! ## The interval widths -/

/-- δ_i = |c (i+1) - c i|, read off the broadcast row. -/
theorem width_apply (x3 : FVec Ideal S2048x1x1 .f32) (i : Fin 2047) :
    val_main_v9 (F := Ideal) x3 (ix4 (0 : Fin 1) (0 : Fin 1) (0 : Fin 1) i) = width (cur1 x3) i := by
  rw [val_main_v9_apply, val_main_v8_apply, val_main_v7_apply, val_main_v6_apply, val_main_v4_apply, val_main_v5_apply]
  have e4 : idx_main_v4 (idx_main_v8 (idx_main_v9 (ix4 (0 : Fin 1) (0 : Fin 1) (0 : Fin 1) i))) = ix3 i.succ 0 0 :=
    funext fun a => Fin.ext (by
      match a with | ⟨0, _⟩ => exact Nat.add_comm 1 i.val | ⟨1, _⟩ => rfl | ⟨2, _⟩ => rfl)
  have e5 : idx_main_v5 (idx_main_v8 (idx_main_v9 (ix4 (0 : Fin 1) (0 : Fin 1) (0 : Fin 1) i))) = ix3 i.castSucc 0 0 :=
    funext fun a => Fin.ext (by
      match a with | ⟨0, _⟩ => rfl | ⟨1, _⟩ => rfl | ⟨2, _⟩ => rfl)
  rw [e4, e5]
  rfl

/-! ## The trapezoid denominator and the normalised weights -/

/-- One term of the denominator: (½ δ_i) (e (i+1) + e i). -/
theorem term_apply (x0 x1 : FVec Ideal S2x8x2048x64 .f32) (x3 : FVec Ideal S2048x1x1 .f32)
    (b : Fin 2) (h : Fin 8) (l : Fin 2048) (i : Fin 2047) :
    val_main_v21 (F := Ideal) x0 x1 x3 (ix4 b h l i)
      = (half * width (cur1 x3) i)
          * (expR (cur4 x0) (cur4 x1) b h l i.succ + expR (cur4 x0) (cur4 x1) b h l i.castSucc) := by
  rw [val_main_v21_apply, val_main_v20_apply, val_main_v16_apply, val_main_v15_apply, val_main_cst_1_apply,
    val_main_v19_apply, val_main_v17_apply, val_main_v18_apply]
  have e20 : idx_main_v20 (ix4 b h l i) = ix4 (0 : Fin 1) (0 : Fin 1) (0 : Fin 1) i := funext fun a => Fin.ext (by
    match a with | ⟨0, _⟩ => rfl | ⟨1, _⟩ => rfl | ⟨2, _⟩ => rfl | ⟨3, _⟩ => rfl)
  have e17 : idx_main_v17 (ix4 b h l i) = ix4 b h l i.succ := funext fun a => Fin.ext (by
    match a with | ⟨0, _⟩ => rfl | ⟨1, _⟩ => rfl | ⟨2, _⟩ => rfl | ⟨3, _⟩ => exact Nat.add_comm 1 i.val)
  have e18 : idx_main_v18 (ix4 b h l i) = ix4 b h l i.castSucc := funext fun a => Fin.ext (by
    match a with | ⟨0, _⟩ => rfl | ⟨1, _⟩ => rfl | ⟨2, _⟩ => rfl | ⟨3, _⟩ => rfl)
  rw [e20, e17, e18, width_apply, exp_apply, exp_apply]
  rfl

/-- The denominator D: the sum of those terms over the 2047 intervals. -/
theorem denom_apply (x0 x1 : FVec Ideal S2x8x2048x64 .f32) (x3 : FVec Ideal S2048x1x1 .f32)
    (b : Fin 2) (h : Fin 8) (l : Fin 2048) :
    val_main_v22 (F := Ideal) x0 x1 x3 (ix3 b h l) = denomR (cur4 x0) (cur4 x1) (cur1 x3) b h l := by
  rw [val_main_v22_apply, val_main_cst_2_apply]
  have z : (FloatOps.ofBits (F := Ideal) .f32 0x00000000#32 : EReal) = 0 := Ideal.ofBits_zero_f32
  rw [z, zero_add]
  unfold denomR
  refine Finset.sum_congr rfl fun i _ => ?_
  have e : idx_main_v22 (ix3 b h l) i = ix4 b h l i := funext fun a => Fin.ext (by
    match a with | ⟨0, _⟩ => rfl | ⟨1, _⟩ => rfl | ⟨2, _⟩ => rfl | ⟨3, _⟩ => rfl)
  rw [e]
  exact term_apply x0 x1 x3 b h l i

/-- The normalised weight e_j / D. -/
theorem attn_apply (x0 x1 : FVec Ideal S2x8x2048x64 .f32) (x3 : FVec Ideal S2048x1x1 .f32)
    (b : Fin 2) (h : Fin 8) (l j : Fin 2048) :
    val_main_v25 (F := Ideal) x0 x1 x3 (ix4 b h l j) = attnR (cur4 x0) (cur4 x1) (cur1 x3) b h l j := by
  rw [val_main_v25_apply, val_main_v24_apply, val_main_v23_apply]
  have e : idx_main_v23 (idx_main_v24 (ix4 b h l j)) = ix3 b h l := funext fun a => Fin.ext (by
    match a with | ⟨0, _⟩ => rfl | ⟨1, _⟩ => rfl | ⟨2, _⟩ => rfl)
  rw [e, exp_apply, denom_apply]
  rfl

/-! ## The weighted values and the two one-sided sums -/

/-- The width as the transposed column carries it. -/
theorem widthCol_apply (x3 : FVec Ideal S2048x1x1 .f32) (i : Fin 2047) :
    val_main_v26 (F := Ideal) x3 (ix4 (0 : Fin 1) (0 : Fin 1) i (0 : Fin 1)) = width (cur1 x3) i := by
  rw [val_main_v26_apply]
  have e : idx_main_v26 (ix4 (0 : Fin 1) (0 : Fin 1) i (0 : Fin 1)) = ix4 (0 : Fin 1) (0 : Fin 1) (0 : Fin 1) i :=
    funext fun a => Fin.ext (by
      match a with | ⟨0, _⟩ => rfl | ⟨1, _⟩ => rfl | ⟨2, _⟩ => rfl | ⟨3, _⟩ => rfl)
  rw [e]
  exact width_apply x3 i

/-- δ_i v (i+1): the right ends' weighted values. -/
theorem valSucc_apply (x2 : FVec Ideal S2x8x2048x64 .f32) (x3 : FVec Ideal S2048x1x1 .f32)
    (b : Fin 2) (h : Fin 8) (i : Fin 2047) (d : Fin 64) :
    val_main_v30 (F := Ideal) x2 x3 (ix4 b h i d) = width (cur1 x3) i * cur4 x2 b h i.succ d := by
  rw [val_main_v30_apply, val_main_v29_apply, val_main_v28_apply]
  have e29 : idx_main_v29 (ix4 b h i d) = ix4 (0 : Fin 1) (0 : Fin 1) i (0 : Fin 1) := funext fun a => Fin.ext (by
    match a with | ⟨0, _⟩ => rfl | ⟨1, _⟩ => rfl | ⟨2, _⟩ => rfl | ⟨3, _⟩ => rfl)
  have e28 : idx_main_v28 (ix4 b h i d) = ix4 b h i.succ d := funext fun a => Fin.ext (by
    match a with | ⟨0, _⟩ => rfl | ⟨1, _⟩ => rfl | ⟨2, _⟩ => exact Nat.add_comm 1 i.val | ⟨3, _⟩ => rfl)
  rw [e29, e28, widthCol_apply]
  rfl

/-- δ_i v i: the left ends' weighted values. -/
theorem valCast_apply (x2 : FVec Ideal S2x8x2048x64 .f32) (x3 : FVec Ideal S2048x1x1 .f32)
    (b : Fin 2) (h : Fin 8) (i : Fin 2047) (d : Fin 64) :
    val_main_v35 (F := Ideal) x2 x3 (ix4 b h i d) = width (cur1 x3) i * cur4 x2 b h i.castSucc d := by
  rw [val_main_v35_apply, val_main_v34_apply, val_main_v33_apply]
  have e34 : idx_main_v34 (ix4 b h i d) = ix4 (0 : Fin 1) (0 : Fin 1) i (0 : Fin 1) := funext fun a => Fin.ext (by
    match a with | ⟨0, _⟩ => rfl | ⟨1, _⟩ => rfl | ⟨2, _⟩ => rfl | ⟨3, _⟩ => rfl)
  have e33 : idx_main_v33 (ix4 b h i d) = ix4 b h i.castSucc d := funext fun a => Fin.ext (by
    match a with | ⟨0, _⟩ => rfl | ⟨1, _⟩ => rfl | ⟨2, _⟩ => rfl | ⟨3, _⟩ => rfl)
  rw [e34, e33, widthCol_apply]
  rfl

/-- The sum over the intervals' right ends. -/
theorem sumSucc_apply (x0 x1 x2 : FVec Ideal S2x8x2048x64 .f32) (x3 : FVec Ideal S2048x1x1 .f32)
    (b : Fin 2) (h : Fin 8) (l : Fin 2048) (d : Fin 64) :
    val_main_v31 (F := Ideal) x0 x1 x2 x3 (ix4 b h l d)
      = ∑ i : Fin 2047, attnR (cur4 x0) (cur4 x1) (cur1 x3) b h l i.succ
          * (width (cur1 x3) i * cur4 x2 b h i.succ d) := by
  rw [val_main_v31_apply]
  refine Finset.sum_congr rfl fun i _ => ?_
  have el : lidx_main_v31 (ix4 b h l d) i = ix4 b h l i := funext fun a => Fin.ext (by
    match a with | ⟨0, _⟩ => rfl | ⟨1, _⟩ => rfl | ⟨2, _⟩ => rfl | ⟨3, _⟩ => rfl)
  have er : ridx_main_v31 (ix4 b h l d) i = ix4 b h i d := funext fun a => Fin.ext (by
    match a with | ⟨0, _⟩ => rfl | ⟨1, _⟩ => rfl | ⟨2, _⟩ => rfl | ⟨3, _⟩ => rfl)
  have e27 : idx_main_v27 (ix4 b h l i) = ix4 b h l i.succ := funext fun a => Fin.ext (by
    match a with | ⟨0, _⟩ => rfl | ⟨1, _⟩ => rfl | ⟨2, _⟩ => rfl | ⟨3, _⟩ => exact Nat.add_comm 1 i.val)
  rw [el, er, val_main_v27_apply, e27, attn_apply, valSucc_apply]

/-- The sum over the intervals' left ends. -/
theorem sumCast_apply (x0 x1 x2 : FVec Ideal S2x8x2048x64 .f32) (x3 : FVec Ideal S2048x1x1 .f32)
    (b : Fin 2) (h : Fin 8) (l : Fin 2048) (d : Fin 64) :
    val_main_v36 (F := Ideal) x0 x1 x2 x3 (ix4 b h l d)
      = ∑ i : Fin 2047, attnR (cur4 x0) (cur4 x1) (cur1 x3) b h l i.castSucc
          * (width (cur1 x3) i * cur4 x2 b h i.castSucc d) := by
  rw [val_main_v36_apply]
  refine Finset.sum_congr rfl fun i _ => ?_
  have el : lidx_main_v36 (ix4 b h l d) i = ix4 b h l i := funext fun a => Fin.ext (by
    match a with | ⟨0, _⟩ => rfl | ⟨1, _⟩ => rfl | ⟨2, _⟩ => rfl | ⟨3, _⟩ => rfl)
  have er : ridx_main_v36 (ix4 b h l d) i = ix4 b h i d := funext fun a => Fin.ext (by
    match a with | ⟨0, _⟩ => rfl | ⟨1, _⟩ => rfl | ⟨2, _⟩ => rfl | ⟨3, _⟩ => rfl)
  have e32 : idx_main_v32 (ix4 b h l i) = ix4 b h l i.castSucc := funext fun a => Fin.ext (by
    match a with | ⟨0, _⟩ => rfl | ⟨1, _⟩ => rfl | ⟨2, _⟩ => rfl | ⟨3, _⟩ => rfl)
  rw [el, er, val_main_v32_apply, e32, attn_apply, valCast_apply]

/-! ## The result -/

/-- The reference's result at (b, h, l, d) is the specification's: half the sum of the two one-sided sums. -/
theorem out_apply (x0 x1 x2 : FVec Ideal S2x8x2048x64 .f32) (x3 : FVec Ideal S2048x1x1 .f32)
    (b : Fin 2) (h : Fin 8) (l : Fin 2048) (d : Fin 64) :
    val_main_v39 (F := Ideal) x0 x1 x2 x3 (ix4 b h l d)
      = refOut (fun b h l d => x0 (ix4 b h l d)) (fun b h l d => x1 (ix4 b h l d)) (fun b h l d => x2 (ix4 b h l d))
          (fun j => x3 (ix3 j 0 0)) b h l d := by
  rw [val_main_v39_apply, val_main_v38_apply, val_main_cst_3_apply, val_main_v37_apply, sumSucc_apply, sumCast_apply]
  rfl

end Cert.ReferenceIdeal.RefValue

end
-- ==== Proof.PreRead.lean ====
/-
  What the precondition says of the four argument arrays.

  The precondition is the conjunction of five one-bit facts.  Four of them are "every entry x of the array has
  |x| < +∞"; on the extended reals |x| is max x (-x), and max x (-x) < ⊤ excludes exactly x = ⊤ and x = ⊥, so every
  entry is the coercion of a real number.  The fifth is 0 < ∑ i, |c (i+1) - c i| over the 2047 intervals of the
  coordinate vector c.  If c were constant, every term would be |r - r| = 0 for a real r (the entries are real by the
  fourth fact), the sum would be 0, and 0 < 0 is absurd; so some interval has c (i+1) ≠ c i.
-/
import proofs.«413024_j36490042147144_3_alg».proof.Proof.Gen.Pre_finite_inputs
import proofs.«413024_j36490042147144_3_alg».proof.Proof.Spec
import Idealize.ShloMosaic.Lib.ReduceAll
import Idealize.ShloMosaic.Lib.ValueIdx
import Idealize.ShloMosaic.PureOps.Ideal.Laws
import Idealize.ShloMosaic.Lib.Pipeline.Value

noncomputable section

namespace Cert.Pre_finite_inputs.Read

open Idealize.ShloMosaic Idealize.ShloMosaic.ValueIdx Cert.Pre_finite_inputs Cert.TrapAttn

/-- The scalar shape has one index. -/
instance : Subsingleton S_.Idx := ⟨fun a b => funext fun d => d.elim0⟩

/-- The word 0x7F800000 is +∞. -/
theorem top_word : Ideal.ofBits .f32 0x7F800000#32 = (⊤ : EReal) := by simp [Ideal.ofBits, Ideal.ieee]

/-- A one-bit word made from a Boolean is 1 only when the Boolean is true. -/
theorem bool_of_bit (b : Bool) (h : BitVec.ofBool b = 1#1) : b = true := by
  cases b <;> first | rfl | exact absurd h (by decide)

/-- On the extended reals, max x (-x) < ⊤ leaves only the real numbers: at ⊤ the maximum is ⊤, and at ⊥ it is -⊥ = ⊤. -/
theorem real_of_abs_lt_top (x : EReal) (h : Ideal.cmp .olt (max x (-x)) (⊤ : EReal) = 1#1) : ∃ r : ℝ, x = (r : EReal) := by
  have h' : max x (-x) < ⊤ := of_decide_eq_true (bool_of_bit _ h)
  induction x using EReal.rec with
  | bot => simp at h'
  | top => simp at h'
  | coe r => exact ⟨r, rfl⟩

/-- "all (|x| < +∞)" over an array of any shape: the conjunction over every index being 1, each entry passes the
    comparison against the broadcast +∞, hence is real. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : ∃ r : ℝ, x i = (r : EReal) := by
  have h1 := Host.reduce_andi_all _ _ hr hu ix0 e i
  rw [cmpf_apply, broadcastInDim_apply ![] hb _ i ix0 (fun a => a.elim0)] at h1
  exact real_of_abs_lt_top (x i) (by rw [← top_word]; exact h1)

/-- For a real r the width |r - r| is 0. -/
theorem abs_sub_self_real (r : ℝ) : max ((r : EReal) - (r : EReal)) (-((r : EReal) - (r : EReal))) = 0 := by
  rw [← EReal.coe_sub, sub_self]; simp

/-- 0 < ∑ i, |c (i+1) - c i| with every c j real: c is not constant.  Were every c (i+1) = c i, each term of the sum
    would be |r - r| = 0, the sum 0 + 0 = 0, and 0 < 0 is false.  Interval i of the [2047,1,1] difference array reads
    the coordinate array at i+1 (the slice from 1) and at i (the slice from 0). -/
theorem notConstant_of_sum (a3 : FVec Ideal S2048x1x1 .f32) (hfin : ∀ j, ∃ r : ℝ, a3 j = (r : EReal))
    (h1 : S2048x1x1.Slices ![1, 0, 0] S2047x1x1) (h0 : S2048x1x1.Slices ![0, 0, 0] S2047x1x1)
    (hr : S2047x1x1.ReducesTo [0, 1, 2] S_) (hu : 0 < S_.numel)
    (e : cmpf .ogt (Host.reduceAdd (Host.absf (subf (extractStridedSlice S2047x1x1 ![1, 0, 0] a3 h1)
            (extractStridedSlice S2047x1x1 ![0, 0, 0] a3 h0))) (constant S_ .f32 0x00000000#32) hr hu)
          (constant S_ .f32 0x00000000#32) ix0 = 1#1) :
    NotConstant (fun j => a3 (ix3 j 0 0)) := by
  by_contra hc
  have hc' : ∀ i : Fin 2047, a3 (ix3 i.succ 0 0) = a3 (ix3 i.castSucc 0 0) := fun i => by
    by_contra hne; exact hc ⟨i, hne⟩
  rw [cmpf_apply, Ideal.cmpf_def, constant_apply, Ideal.ofBits_zero_f32] at e
  have hlt : (0 : EReal) < Host.reduceAdd (Host.absf (subf (extractStridedSlice S2047x1x1 ![1, 0, 0] a3 h1)
            (extractStridedSlice S2047x1x1 ![0, 0, 0] a3 h0))) (constant (F := Ideal) S_ .f32 0x00000000#32) hr hu ix0 :=
    of_decide_eq_true (bool_of_bit _ e)
  unfold Host.reduceAdd at hlt
  rw [Ideal.hostReduceAdd_def, Ideal.hostReduceAdd_total hr (fun b => b.elim0), constant_apply, Ideal.ofBits_zero_f32,
    zero_add] at hlt
  rw [Finset.sum_eq_zero] at hlt
  · exact lt_irrefl _ hlt
  · intro i _
    -- the index of interval i is (j, 0, 0): the two unit axes have the one coordinate 0
    obtain ⟨j, hj⟩ : ∃ j : Fin 2047, (i 0).val = j.val := ⟨i 0, rfl⟩
    have e1 : extractStridedSlice S2047x1x1 ![1, 0, 0] a3 h1 i = a3 (ix3 j.succ 0 0) :=
      extractStridedSlice_apply ![1, 0, 0] a3 h1 i _ (fun a => match a with
        | ⟨0, _⟩ => by show j.val + 1 = 1 + (i 0).val; omega
        | ⟨1, _⟩ => by have h : (i 1).val < 1 := (i 1).isLt; show 0 = 0 + (i 1).val; omega
        | ⟨2, _⟩ => by have h : (i 2).val < 1 := (i 2).isLt; show 0 = 0 + (i 2).val; omega)
    have e0 : extractStridedSlice S2047x1x1 ![0, 0, 0] a3 h0 i = a3 (ix3 j.castSucc 0 0) :=
      extractStridedSlice_apply ![0, 0, 0] a3 h0 i _ (fun a => match a with
        | ⟨0, _⟩ => by show j.val = 0 + (i 0).val; omega
        | ⟨1, _⟩ => by have h : (i 1).val < 1 := (i 1).isLt; show 0 = 0 + (i 1).val; omega
        | ⟨2, _⟩ => by have h : (i 2).val < 1 := (i 2).isLt; show 0 = 0 + (i 2).val; omega)
    show FloatOps.hostAbsf (subf (extractStridedSlice S2047x1x1 ![1, 0, 0] a3 h1)
      (extractStridedSlice S2047x1x1 ![0, 0, 0] a3 h0) i) = 0
    rw [Ideal.hostAbsf_def, Ideal.absf_def, subf_apply, e1, e0, hc' j]
    obtain ⟨r, hr'⟩ := hfin (ix3 j.castSucc 0 0)
    rw [hr']
    exact abs_sub_self_real r

/-- The precondition read back: the three [2, 8, 2048, 64] arrays and the coordinate vector hold real numbers only, and
    the coordinate vector is not constant.  The result bit is the conjunction
    (((all₀ ∧ all₁) ∧ all₂) ∧ all₃) ∧ (0 < ∑ i, |c (i+1) - c i|); each conjunct is 1. -/
theorem of_pre (a0 a1 a2 : FVec Ideal S2x8x2048x64 .f32) (a3 : FVec Ideal S2048x1x1 .f32)
    (hpre : Cert.Pre_finite_inputs.fn (F := Ideal) a0 a1 a2 a3 = fun _ => 1#1) :
    Finite4 (fun b h l d => a0 (ix4 b h l d)) ∧ Finite4 (fun b h l d => a1 (ix4 b h l d)) ∧ Finite4 (fun b h l d => a2 (ix4 b h l d))
      ∧ FiniteC (fun j => a3 (ix3 j 0 0)) ∧ NotConstant (fun j => a3 (ix3 j 0 0)) := by
  have h := congrFun hpre ix0
  dsimp only [fn, fn_part1] at h
  obtain ⟨h', h4⟩ := IntOp.andi_eq_one.1 h
  obtain ⟨h', h3⟩ := IntOp.andi_eq_one.1 h'
  obtain ⟨h', h2⟩ := IntOp.andi_eq_one.1 h'
  obtain ⟨h0, h1⟩ := IntOp.andi_eq_one.1 h'
  have f3 := finite_of_all a3 _ _ _ h3
  exact ⟨fun b hh l d => finite_of_all a0 _ _ _ h0 _, fun b hh l d => finite_of_all a1 _ _ _ h1 _,
    fun b hh l d => finite_of_all a2 _ _ _ h2 _, fun j => f3 _, notConstant_of_sum a3 f3 _ _ _ _ h4⟩

end Cert.Pre_finite_inputs.Read

end
-- ==== Proof.KernelBody.lean ====
/-
  The kernel body's arithmetic, read at an index.

  One grid point holds a block of 512 query rows x0 : [1,512,64], the head's keys x1 : [1,2048,64], its values with a
  column of ones appended x2 : [1,2048,65], and the log-weights x3 : [1,2048].  The body forms the scores
  s r j = ∑ d, (x0 r d · 1/8) · x1 j d, each row's maximum M r, the probabilities p r j = exp ((s r j - M r) + x3 j),
  their products with the 65 value columns n r e = ∑ j, p r j · x2 j e, and stores n r d / n r 64.
-/
import proofs.«413024_j36490042147144_3_alg».proof.Proof.Gen.KernelIdeal.Skeleton
import proofs.«413024_j36490042147144_3_alg».proof.Proof.Spec
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.TrapAttn

/-! ## The two products' operand indices -/

abbrev D1 := dot_S512x64_S2048x64_S512x2048_1_1_0_0_n_n
abbrev D2 := dot_S512x2048_S2048x65_S512x65_1_0_0_1_n_n

theorem lhs_D1_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_D1_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_D1_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_D1_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The first product into a zero accumulator at (r, j): the sum over the 64 features of row r of the left
    operand against row j of the right. -/
theorem scores_apply (a : FVec Ideal S512x64 .bf16) (kb : FVec Ideal S2048x64 .bf16) (r : Fin 512) (j : Fin 2048) :
    matmul dot_S512x64_S2048x64_S512x2048_1_1_0_0_n_n none a kb (constant S512x2048 .f32 0x00000000#32) (ix2 r j)
      = ∑ dd : Fin 64, a (ix2 r dd) * kb (ix2 j dd) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 r j) ((ValueIdx.contrEquiv1 dot_S512x64_S2048x64_S512x2048_1_1_0_0_n_n 64 rfl rfl).symm k) = ix2 r k := funext fun a => Fin.ext (by
    match a with
    | ⟨0, _⟩ => exact lhs_D1_0 _ _
    | ⟨1, _⟩ => exact (lhs_D1_1 _ _).trans hk)
  have er : dot_S512x64_S2048x64_S512x2048_1_1_0_0_n_n.rhsIdx (ix2 r j) ((ValueIdx.contrEquiv1 dot_S512x64_S2048x64_S512x2048_1_1_0_0_n_n 64 rfl rfl).symm k) = ix2 j k := funext fun a => Fin.ext (by
    match a with
    | ⟨0, _⟩ => exact rhs_D1_0 _ _
    | ⟨1, _⟩ => exact (rhs_D1_1 _ _).trans hk)
  rw [el, er]

theorem lhs_D2_0 (i : S512x65.Idx) (q : dot_S512x2048_S2048x65_S512x65_1_0_0_1_n_n.contr.Idx) :
    (dot_S512x2048_S2048x65_S512x65_1_0_0_1_n_n.lhsIdx i q 0).val = (i 0).val := by
  unfold DotDims.lhsIdx
  rw [dif_neg (show ¬(0 : Fin S512x2048.rank) ∈ dot_S512x2048_S2048x65_S512x65_1_0_0_1_n_n.lhsBatch by decide), dif_pos (show (0 : Fin S512x2048.rank) ∈ dot_S512x2048_S2048x65_S512x65_1_0_0_1_n_n.lhsNonContracting by decide)]
  rfl
theorem lhs_D2_1 (i : S512x65.Idx) (q : dot_S512x2048_S2048x65_S512x65_1_0_0_1_n_n.contr.Idx) :
    (dot_S512x2048_S2048x65_S512x65_1_0_0_1_n_n.lhsIdx i q 1).val = (q ⟨0, by decide⟩).val :=
  dot_S512x2048_S2048x65_S512x65_1_0_0_1_n_n.lhsIdx_val_of_single rfl i q
theorem rhs_D2_0 (i : S512x65.Idx) (q : dot_S512x2048_S2048x65_S512x65_1_0_0_1_n_n.contr.Idx) :
    (dot_S512x2048_S2048x65_S512x65_1_0_0_1_n_n.rhsIdx i q 0).val = (q ⟨0, by decide⟩).val :=
  dot_S512x2048_S2048x65_S512x65_1_0_0_1_n_n.rhsIdx_val_of_single rfl i q
theorem rhs_D2_1 (i : S512x65.Idx) (q : dot_S512x2048_S2048x65_S512x65_1_0_0_1_n_n.contr.Idx) :
    (dot_S512x2048_S2048x65_S512x65_1_0_0_1_n_n.rhsIdx i q 1).val = (i 1).val := by
  unfold DotDims.rhsIdx
  rw [dif_neg (show ¬(1 : Fin S2048x65.rank) ∈ dot_S512x2048_S2048x65_S512x65_1_0_0_1_n_n.rhsBatch by decide), dif_pos (show (1 : Fin S2048x65.rank) ∈ dot_S512x2048_S2048x65_S512x65_1_0_0_1_n_n.rhsNonContracting by decide)]
  rfl

/-- The second product into a zero accumulator at (r, e): the sum over the 2048 keys of row r of the
    probabilities against column e of the values. -/
theorem weighted_apply (p : FVec Ideal S512x2048 .bf16) (vb : FVec Ideal S2048x65 .bf16) (r : Fin 512) (e : Fin 65) :
    matmul dot_S512x2048_S2048x65_S512x65_1_0_0_1_n_n none p vb (constant S512x65 .f32 0x00000000#32) (ix2 r e)
      = ∑ j : Fin 2048, p (ix2 r j) * vb (ix2 j e) := by
  simp only [matmul]
  rw [Ideal.matmul_constant_zero_apply, ← Equiv.sum_comp (ValueIdx.contrEquiv1 dot_S512x2048_S2048x65_S512x65_1_0_0_1_n_n 2048 rfl rfl).symm]
  refine Finset.sum_congr rfl fun k _ => ?_
  have hk := ValueIdx.contrEquiv1_symm_val dot_S512x2048_S2048x65_S512x65_1_0_0_1_n_n 2048 rfl rfl k
  have el : dot_S512x2048_S2048x65_S512x65_1_0_0_1_n_n.lhsIdx (ix2 r e) ((ValueIdx.contrEquiv1 dot_S512x2048_S2048x65_S512x65_1_0_0_1_n_n 2048 rfl rfl).symm k) = ix2 r k := funext fun a => Fin.ext (by
    match a with
    | ⟨0, _⟩ => exact lhs_D2_0 _ _
    | ⟨1, _⟩ => exact (lhs_D2_1 _ _).trans hk)
  have er : dot_S512x2048_S2048x65_S512x65_1_0_0_1_n_n.rhsIdx (ix2 r e) ((ValueIdx.contrEquiv1 dot_S512x2048_S2048x65_S512x65_1_0_0_1_n_n 2048 rfl rfl).symm k) = ix2 k e := funext fun a => Fin.ext (by
    match a with
    | ⟨0, _⟩ => exact (rhs_D2_0 _ _).trans hk
    | ⟨1, _⟩ => exact rhs_D2_1 _ _)
  rw [el, er]

/-! ## Layout operations of this body, at an index -/

/-- Dropping a leading unit axis: (a, b) of the view is (0, a, b) of the block. -/
theorem dropUnit_ix {α : Type} {n m : Nat} (x : (⟨3, ![1, n, m]⟩ : Shape).Idx → α)
    (h : (⟨3, ![1, n, m]⟩ : Shape).ShapeCasts ⟨2, ![n, m]⟩) (a : Fin n) (b : Fin m) :
    shapeCast ⟨2, ![n, m]⟩ x h (ix2 a b) = x (ix3 0 a b) :=
  shapeCast_apply x h (ix2 a b) (ix3 0 a b) (by
    rw [Shape.rowMajor_val_three, Shape.rowMajor_val_two]
    show (0 * n + a.val) * m + b.val = a.val * m + b.val
    rw [Nat.zero_mul, Nat.zero_add])

/-- Adding a leading unit axis: (0, a, b) of the block is (a, b) of the value. -/
theorem addUnit_ix {α : Type} {n m : Nat} (y : (⟨2, ![n, m]⟩ : Shape).Idx → α)
    (h : (⟨2, ![n, m]⟩ : Shape).ShapeCasts ⟨3, ![1, n, m]⟩) (a : Fin n) (b : Fin m) :
    shapeCast ⟨3, ![1, n, m]⟩ y h (ix3 0 a b) = y (ix2 a b) :=
  shapeCast_apply y h (ix3 0 a b) (ix2 a b) (by
    rw [Shape.rowMajor_val_three, Shape.rowMajor_val_two]
    show a.val * m + b.val = (0 * n + a.val) * m + b.val
    rw [Nat.zero_mul, Nat.zero_add])

/-- A vector as a column: (a, 0) of the column is a of the vector. -/
theorem column_ix {α : Type} {n : Nat} (y : (⟨1, ![n]⟩ : Shape).Idx → α)
    (h : (⟨1, ![n]⟩ : Shape).ShapeCasts ⟨2, ![n, 1]⟩) (a : Fin n) :
    shapeCast ⟨2, ![n, 1]⟩ y h (ix2 a 0) = y (ix1 a) :=
  shapeCast_apply y h (ix2 a 0) (ix1 a) (by
    rw [Shape.rowMajor_val_one, Shape.rowMajor_val_two]
    show a.val = a.val * 1 + 0
    omega)

section Body

variable (x0 : FVec Ideal S1x512x64 .f32) (x1 : FVec Ideal S1x2048x64 .bf16) (x2 : FVec Ideal S1x2048x65 .bf16)
  (x3 : FVec Ideal S1x2048 .f32)

/-! ## The body's stages, named as the payload composes them -/

/-- The query block scaled by 1/8, in the product's input format. -/
def scaledQ : FVec Ideal S512x64 .bf16 :=
  truncf .bf16 (mulf (shapeCast S512x64 x0 shapeCasts_S1x512x64_S512x64) (broadcast S512x64 (Scalar.ofBits .f32 0x3E000000#32))) bitsLt_bf16_f32
def keysB : FVec Ideal S2048x64 .bf16 := shapeCast S2048x64 x1 shapeCasts_S1x2048x64_S2048x64
def valsB : FVec Ideal S2048x65 .bf16 := shapeCast S2048x65 x2 shapeCasts_S1x2048x65_S2048x65
def scoresB : FVec Ideal S512x2048 .f32 :=
  matmul dot_S512x64_S2048x64_S512x2048_1_1_0_0_n_n none (scaledQ x0) (keysB x1) (constant S512x2048 .f32 0x00000000#32)
def rowMaxB : FVec Ideal S512 .f32 :=
  multiReduction .maximumf [1] S512 (scoresB x0 x1) 0xFF800000#32 reduces_S512x2048_S512 (.inl rfl) rfl
def probsB : FVec Ideal S512x2048 .bf16 :=
  truncf .bf16 (exp (addf (subf (scoresB x0 x1) (broadcastTo S512x2048 (shapeCast S512x1 (rowMaxB x0 x1) shapeCasts_S512_S512x1) broadcasts_S512x1_S512x2048))
    (broadcastTo S512x2048 (shapeCast S1x2048 x3 shapeCasts_S1x2048_S1x2048) broadcasts_S1x2048_S512x2048))) bitsLt_bf16_f32
def numDenB : FVec Ideal S512x65 .f32 :=
  matmul dot_S512x2048_S2048x65_S512x65_1_0_0_1_n_n none (probsB x0 x1 x3) (valsB x2) (constant S512x65 .f32 0x00000000#32)

/-- The stored payload is the quotient of the first 64 columns by the 65th, as a [1,512,64] block. -/
theorem pay_eq : k0_pay1 (F := Ideal) x0 x1 x2 x3
    = shapeCast S1x512x64 (divf (extractStridedSlice S512x64 ![0, 0] (numDenB x0 x1 x2 x3) slices_S512x65_o0_0_S512x64)
        (broadcastTo S512x64 (extractStridedSlice S512x1 ![0, 64] (numDenB x0 x1 x2 x3) slices_S512x65_o0_64_S512x1) broadcasts_S512x1_S512x64))
      shapeCasts_S512x64_S1x512x64 := rfl

/-! ## The same stages as formulas -/

/-- The score of query row r against key j. -/
def sB (r : Fin 512) (j : Fin 2048) : EReal := ∑ dd : Fin 64, (x0 (ix3 0 r dd) * eighth) * x1 (ix3 0 j dd)
/-- Row r's maximum score. -/
def mB (r : Fin 512) : EReal := (Finset.univ : Finset (Fin 2048)).fold max negInf (fun j => sB x0 x1 r j)
/-- The unnormalised probability. -/
def pB (r : Fin 512) (j : Fin 2048) : EReal := Ideal.exp ((sB x0 x1 r j - mB x0 x1 r) + x3 (ix2 0 j))

theorem scaledQ_apply (r : Fin 512) (dd : Fin 64) : scaledQ x0 (ix2 r dd) = x0 (ix3 0 r dd) * eighth := by
  unfold scaledQ
  rw [truncf_apply, mulf_apply, broadcast_apply, dropUnit_ix]
  rfl

theorem keysB_apply (j : Fin 2048) (dd : Fin 64) : keysB x1 (ix2 j dd) = x1 (ix3 0 j dd) := dropUnit_ix x1 _ j dd
theorem valsB_apply (j : Fin 2048) (e : Fin 65) : valsB x2 (ix2 j e) = x2 (ix3 0 j e) := dropUnit_ix x2 _ j e

theorem scoresB_apply (r : Fin 512) (j : Fin 2048) : scoresB x0 x1 (ix2 r j) = sB x0 x1 r j := by
  unfold scoresB sB
  rw [scores_apply]
  exact Finset.sum_congr rfl fun dd _ => by rw [scaledQ_apply, keysB_apply]

theorem rowMaxB_apply (r : Fin 512) : rowMaxB x0 x1 (ix1 r) = mB x0 x1 r := by
  unfold rowMaxB mB
  refine (Ideal.multiReduction_maximumf_single (scoresB x0 x1) 0xFF800000#32 reduces_S512x2048_S512 (.inl rfl) rfl (ix1 r)).trans ?_
  show (Finset.univ : Finset (Fin 2048)).fold max negInf (fun j : Fin 2048 => scoresB x0 x1 (reduces_S512x2048_S512.lift (ix1 r) j)) = _
  refine congrArg (fun f : Fin 2048 → EReal => (Finset.univ : Finset (Fin 2048)).fold max negInf f) (funext fun j : Fin 2048 => ?_)
  refine Eq.trans ?_ (scoresB_apply x0 x1 r j)
  exact congrArg (scoresB x0 x1) (funext fun a => Fin.ext (by match a with | ⟨0, _⟩ => rfl | ⟨1, _⟩ => rfl))

theorem probsB_apply (r : Fin 512) (j : Fin 2048) : probsB x0 x1 x3 (ix2 r j) = pB x0 x1 x3 r j := by
  unfold probsB pB
  rw [truncf_apply]
  show FloatOps.exp (addf _ _ (ix2 r j)) = _
  rw [addf_apply, subf_apply, scoresB_apply,
    broadcastTo_apply _ broadcasts_S512x1_S512x2048 (ix2 r j) (ix2 r 0) (fun a => by match a with | ⟨0, _⟩ => rfl | ⟨1, _⟩ => rfl),
    column_ix, rowMaxB_apply,
    broadcastTo_apply _ broadcasts_S1x2048_S512x2048 (ix2 r j) (ix2 0 j) (fun a => by match a with | ⟨0, _⟩ => rfl | ⟨1, _⟩ => rfl),
    shapeCast_self]
  rfl

theorem numDenB_apply (r : Fin 512) (e : Fin 65) :
    numDenB x0 x1 x2 x3 (ix2 r e) = ∑ j : Fin 2048, pB x0 x1 x3 r j * x2 (ix3 0 j e) := by
  unfold numDenB
  rw [weighted_apply]
  exact Finset.sum_congr rfl fun j _ => by rw [probsB_apply, valsB_apply]

/-- THE PAYLOAD AT (0, r, d): the value sum of row r in column d over the sum in the column of ones. -/
theorem pay_apply (r : Fin 512) (d : Fin 64) :
    k0_pay1 (F := Ideal) x0 x1 x2 x3 (ix3 0 r d)
      = Ideal.div (∑ j : Fin 2048, pB x0 x1 x3 r j * x2 (ix3 0 j ⟨d.val, by omega⟩))
          (∑ j : Fin 2048, pB x0 x1 x3 r j * x2 (ix3 0 j 64)) := by
  rw [pay_eq, addUnit_ix, divf_apply,
    extractStridedSlice_apply ![0, 0] _ slices_S512x65_o0_0_S512x64 (ix2 r d) (ix2 r ⟨d.val, by omega⟩)
      (fun a => by match a with | ⟨0, _⟩ => exact (Nat.zero_add _).symm | ⟨1, _⟩ => exact (Nat.zero_add _).symm),
    broadcastTo_apply _ broadcasts_S512x1_S512x64 (ix2 r d) (ix2 r 0) (fun a => by match a with | ⟨0, _⟩ => rfl | ⟨1, _⟩ => rfl),
    extractStridedSlice_apply ![0, 64] _ slices_S512x65_o0_64_S512x1 (ix2 r 0) (ix2 r 64)
      (fun a => by match a with | ⟨0, _⟩ => exact (Nat.zero_add _).symm | ⟨1, _⟩ => rfl),
    numDenB_apply, numDenB_apply]

end Body

end Cert.KernelIdeal.Body

end
-- ==== Proof.KernelHost.lean ====
/-
  The arrays the kernel's region is launched on, read at an index.

  Before the region the program reshapes the queries, keys and values from [2,8,2048,64] to [16,2048,64] (head
  8·b + h), appends a column of ones to the values, and builds the log-weight row from the coordinates: with
  δ_i = |c (i+1) - c i| it concatenates (0, δ) and (δ, 0), adds them, halves the sum and takes the logarithm.  Changes
  of float format are the identity on the extended reals.
-/
import proofs.«413024_j36490042147144_3_alg».proof.Proof.Gen.KernelIdeal.Frame
import proofs.«413024_j36490042147144_3_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen Cert.TrapAttn

variable (m : (ℓ : Loc nD τ sig) → Buf (Elt Ideal) ℓ)

/-- The four argument arrays of core c, as functions of their indices. -/
abbrev arg0 (c : Dev nD) : S2x8x2048x64.Idx → EReal := m ((c : Thread nD τ).loc main_arg0)
abbrev arg1 (c : Dev nD) : S2x8x2048x64.Idx → EReal := m ((c : Thread nD τ).loc main_arg1)
abbrev arg2 (c : Dev nD) : S2x8x2048x64.Idx → EReal := m ((c : Thread nD τ).loc main_arg2)
abbrev arg3 (c : Dev nD) : S2048x1x1.Idx → EReal := m ((c : Thread nD τ).loc main_arg3)

/-- The same by coordinates, as the specification takes them. -/
abbrev qOf (c : Dev nD) : Arr4 := fun b h l d => arg0 m c (ix4 b h l d)
abbrev kOf (c : Dev nD) : Arr4 := fun b h l d => arg1 m c (ix4 b h l d)
abbrev vOf (c : Dev nD) : Arr4 := fun b h l d => arg2 m c (ix4 b h l d)
abbrev cOf (c : Dev nD) : Coords := fun j => arg3 m c (ix3 j 0 0)

/-- Head (b, h) is row 8·b + h of the reshaped arrays. -/
abbrev headIx (b : Fin 2) (h : Fin 8) : Fin 16 := ⟨b.val * 8 + h.val, by omega⟩

/-! ## Queries, keys, values -/

theorem queries_eq (c : Dev nD) : (V (F := Ideal) m c main_v14 : S16x2048x64.Idx → EReal)
    = shapeCast S16x2048x64 (arg0 m c) shapeCasts_S2x8x2048x64_S16x2048x64 := by
  show StableHlo.after hostOps0 (fun b => m (c, b)) (Proc.devRef .tc main_v14) = _
  after_results
  rfl

theorem keys_eq (c : Dev nD) : (V (F := Ideal) m c main_v16 : S16x2048x64.Idx → EReal)
    = (truncf .bf16 (shapeCast S16x2048x64 (arg1 m c) shapeCasts_S2x8x2048x64_S16x2048x64 : FVec Ideal S16x2048x64 .f32) bitsLt_bf16_f32
        : FVec Ideal S16x2048x64 .bf16) := by
  show StableHlo.after hostOps0 (fun b => m (c, b)) (Proc.devRef .tc main_v16) = _
  after_results
  rfl

theorem values_eq (c : Dev nD) : (V (F := Ideal) m c main_v20 : S16x2048x65.Idx → EReal)
    = (truncf .bf16 (concatenate S16x2048x65 2
        [⟨S16x2048x64, shapeCast S16x2048x64 (arg2 m c) shapeCasts_S2x8x2048x64_S16x2048x64⟩,
          ⟨S16x2048x1, broadcastInDim S16x2048x1 ![] bcast_S_S16x2048x1 (constant (F := Ideal) S_ .f32 0x3F800000#32)⟩]
        concatenates_S16x2048x64_S16x2048x1_S16x2048x65_d2 : FVec Ideal S16x2048x65 .f32) bitsLt_bf16_f32
        : FVec Ideal S16x2048x65 .bf16) := by
  show StableHlo.after hostOps0 (fun b => m (c, b)) (Proc.devRef .tc main_v20) = _
  after_results
  rfl

/-- A reshape [2,8,2048,64] → [16,2048,64] at (8·b + h, l, d) reads (b, h, l, d). -/
theorem reshape_head_ix (x : S2x8x2048x64.Idx → EReal) (b : Fin 2) (h : Fin 8) (l : Fin 2048) (d : Fin 64) :
    shapeCast S16x2048x64 x shapeCasts_S2x8x2048x64_S16x2048x64 (ix3 (headIx b h) l d) = x (ix4 b h l d) :=
  shapeCast_apply x _ (ix3 (headIx b h) l d) (ix4 b h l d) (by
    rw [Shape.rowMajor_val_four, Shape.rowMajor_val_three]
    rfl)

theorem queries_apply (c : Dev nD) (b : Fin 2) (h : Fin 8) (l : Fin 2048) (d : Fin 64) :
    (V (F := Ideal) m c main_v14 : S16x2048x64.Idx → EReal) (ix3 (headIx b h) l d) = qOf m c b h l d := by
  rw [queries_eq, reshape_head_ix]

theorem keys_apply (c : Dev nD) (b : Fin 2) (h : Fin 8) (j : Fin 2048) (d : Fin 64) :
    (V (F := Ideal) m c main_v16 : S16x2048x64.Idx → EReal) (ix3 (headIx b h) j d) = kOf m c b h j d := by
  rw [keys_eq, truncf_apply, reshape_head_ix]

/-- A value column below 64 is the value; column 64 is the appended one. -/
theorem values_apply_lt (c : Dev nD) (b : Fin 2) (h : Fin 8) (j : Fin 2048) (d : Fin 64) :
    (V (F := Ideal) m c main_v20 : S16x2048x65.Idx → EReal) (ix3 (headIx b h) j ⟨d.val, by omega⟩) = vOf m c b h j d := by
  rw [values_eq, truncf_apply,
    concatenate_pair_apply_left (t := S16x2048x65) (s₁ := S16x2048x64) (s₂ := S16x2048x1) (2 : Fin 3) _ _
      concatenates_S16x2048x64_S16x2048x1_S16x2048x65_d2
      (ix3 (headIx b h) j (⟨d.val, by omega⟩ : Fin 65)) rfl (ix3 (headIx b h) j d)
      (fun a => by match a with | ⟨0, _⟩ => rfl | ⟨1, _⟩ => rfl | ⟨2, _⟩ => rfl),
    reshape_head_ix]

theorem values_apply_last (c : Dev nD) (b : Fin 2) (h : Fin 8) (j : Fin 2048) :
    (V (F := Ideal) m c main_v20 : S16x2048x65.Idx → EReal) (ix3 (headIx b h) j 64) = one := by
  rw [values_eq, truncf_apply,
    concatenate_pair_apply_right (t := S16x2048x65) (s₁ := S16x2048x64) (s₂ := S16x2048x1) (2 : Fin 3) _ _
      concatenates_S16x2048x64_S16x2048x1_S16x2048x65_d2
      (ix3 (headIx b h) j (64 : Fin 65)) rfl rfl (ix3 (headIx b h) j (0 : Fin 1))
      (fun a ha => by match a with | ⟨0, _⟩ => rfl | ⟨1, _⟩ => rfl | ⟨2, _⟩ => exact absurd rfl ha)
      rfl]
  rfl

/-! ## The log-weight row -/

/-- The 2047 interval widths as the program forms them: |c[1:] - c[:-1]|, flattened. -/
def widthVec (c : Dev nD) : FVec Ideal S2047 .f32 :=
  shapeCast S2047 (Host.absf (subf
    (extractStridedSlice S2047x1x1 ![1, 0, 0] (arg3 m c) slices_S2048x1x1_S2047x1x1_1_0_0 : FVec Ideal S2047x1x1 .f32)
    (extractStridedSlice S2047x1x1 ![0, 0, 0] (arg3 m c) slices_S2048x1x1_S2047x1x1_0_0_0))) shapeCasts_S2047x1x1_S2047

/-- The one-entry zero vector the program pads with. -/
def zero1 : FVec Ideal S1 .f32 := broadcastInDim S1 ![] bcast_S_S1 (constant (F := Ideal) S_ .f32 0x00000000#32)

/-- The weights before the logarithm: half of (0, δ) + (δ, 0). -/
def weightVec (c : Dev nD) : FVec Ideal S2048 .f32 :=
  mulf (broadcastInDim S2048 ![] bcast_S_S2048 (constant (F := Ideal) S_ .f32 0x3F000000#32))
    (addf (concatenate S2048 0 [⟨S1, zero1⟩, ⟨S2047, widthVec m c⟩] concatenates_S1_S2047_S2048_d0)
      (concatenate S2048 0 [⟨S2047, widthVec m c⟩, ⟨S1, zero1⟩] concatenates_S2047_S1_S2048_d0))

theorem logw_eq (c : Dev nD) : (V (F := Ideal) m c main_v13 : S1x2048.Idx → EReal)
    = Host.log (shapeCast S1x2048 (weightVec m c) shapeCasts_S2048_S1x2048 : FVec Ideal S1x2048 .f32) := by
  show StableHlo.after hostOps0 (fun b => m (c, b)) (Proc.devRef .tc main_v13) = _
  after_results
  rfl

theorem widthVec_apply (c : Dev nD) (i : Fin 2047) : widthVec m c (ix1 i) = width (cOf m c) i := by
  unfold widthVec width
  rw [shapeCast_apply _ shapeCasts_S2047x1x1_S2047 (ix1 i) (ix3 i 0 0) (by
    rw [Shape.rowMajor_val_three, Shape.rowMajor_val_one]
    show (i.val * 1 + 0) * 1 + 0 = i.val
    omega)]
  show FloatOps.hostAbsf (subf _ _ (ix3 i 0 0)) = _
  rw [Ideal.hostAbsf_def, Ideal.absf_def, subf_apply,
    extractStridedSlice_apply ![1, 0, 0] _ slices_S2048x1x1_S2047x1x1_1_0_0 (ix3 i 0 0) (ix3 i.succ 0 0)
      (fun a => by match a with | ⟨0, _⟩ => exact Nat.add_comm _ _ | ⟨1, _⟩ => rfl | ⟨2, _⟩ => rfl),
    extractStridedSlice_apply ![0, 0, 0] _ slices_S2048x1x1_S2047x1x1_0_0_0 (ix3 i 0 0) (ix3 i.castSucc 0 0)
      (fun a => by match a with | ⟨0, _⟩ => exact (Nat.zero_add _).symm | ⟨1, _⟩ => rfl | ⟨2, _⟩ => rfl)]

theorem zero1_apply (k : S1.Idx) : zero1 k = 0 := by
  unfold zero1
  rw [broadcastInDim_apply _ bcast_S_S1 _ k ix0 (fun a => a.elim0)]
  exact Ideal.ofBits_zero_f32

/-- (0, δ) at key j: nothing to the left of key 0, else the width of interval j - 1. -/
theorem padLeft_apply (c : Dev nD) (j : Fin 2048) :
    concatenate S2048 0 [⟨S1, zero1⟩, ⟨S2047, widthVec m c⟩] concatenates_S1_S2047_S2048_d0 (ix1 j)
      = if h : j.val = 0 then 0 else width (cOf m c) ⟨j.val - 1, by omega⟩ := by
  by_cases h : j.val = 0
  · rw [dif_pos h, concatenate_pair_apply_left (t := S2048) (s₁ := S1) (s₂ := S2047) (0 : Fin 1) _ _ concatenates_S1_S2047_S2048_d0 (ix1 j) rfl (ix1 (0 : Fin 1))
      (fun a => by match a with | ⟨0, _⟩ => exact h.symm), zero1_apply]
  · rw [dif_neg h, concatenate_pair_apply_right (t := S2048) (s₁ := S1) (s₂ := S2047) (0 : Fin 1) _ _ concatenates_S1_S2047_S2048_d0 (ix1 j) rfl rfl
      (ix1 (⟨j.val - 1, by omega⟩ : Fin 2047)) (fun a ha => by match a with | ⟨0, _⟩ => exact absurd rfl ha)
      (by show j.val - 1 + 1 = j.val; omega), widthVec_apply]

/-- (δ, 0) at key j: the width of interval j, nothing to the right of key 2047. -/
theorem padRight_apply (c : Dev nD) (j : Fin 2048) :
    concatenate S2048 0 [⟨S2047, widthVec m c⟩, ⟨S1, zero1⟩] concatenates_S2047_S1_S2048_d0 (ix1 j)
      = if h : j.val < 2047 then width (cOf m c) ⟨j.val, h⟩ else 0 := by
  by_cases h : j.val < 2047
  · rw [dif_pos h, concatenate_pair_apply_left (t := S2048) (s₁ := S2047) (s₂ := S1) (0 : Fin 1) _ _ concatenates_S2047_S1_S2048_d0 (ix1 j) rfl (ix1 (⟨j.val, h⟩ : Fin 2047))
      (fun a => by match a with | ⟨0, _⟩ => rfl), widthVec_apply]
  · rw [dif_neg h, concatenate_pair_apply_right (t := S2048) (s₁ := S2047) (s₂ := S1) (0 : Fin 1) _ _ concatenates_S2047_S1_S2048_d0 (ix1 j) rfl rfl
      (ix1 (0 : Fin 1)) (fun a ha => by match a with | ⟨0, _⟩ => exact absurd rfl ha)
      (by show 0 + 2047 = j.val; omega), zero1_apply]

theorem weightVec_apply (c : Dev nD) (j : Fin 2048) : weightVec m c (ix1 j) = weight (cOf m c) j := by
  unfold weightVec weight
  rw [mulf_apply, addf_apply, padLeft_apply, padRight_apply,
    broadcastInDim_apply _ bcast_S_S2048 _ (ix1 j) ix0 (fun a => a.elim0)]
  rfl

/-- THE LOG-WEIGHT ROW at key j is the logarithm of key j's trapezoid weight. -/
theorem logw_apply (c : Dev nD) (j : Fin 2048) :
    (V (F := Ideal) m c main_v13 : S1x2048.Idx → EReal) (ix2 0 j) = Ideal.log (weight (cOf m c) j) := by
  rw [logw_eq]
  show FloatOps.hostUnary .log (shapeCast S1x2048 (weightVec m c) shapeCasts_S2048_S1x2048 (ix2 0 j)) = _
  rw [Ideal.hostUnary_log_def, shapeCast_apply _ shapeCasts_S2048_S1x2048 (ix2 0 j) (ix1 j) (by
    rw [Shape.rowMajor_val_one, Shape.rowMajor_val_two]
    show j.val = 0 * 2048 + j.val
    omega), weightVec_apply]

end Cert.KernelIdeal.HostSide

end
-- ==== Proof.KernelArray.lean ====
/-
  The kernel's output array after the run, as one function of the argument arrays.

  The grid has 16 × 4 points: point (g, s) works on head g (= 8·b + h) and on query rows 512·s … 512·s + 511.  It is
  handed row block (g, s) of the reshaped queries, all of head g's keys and values-with-ones, and the whole log-weight
  row, and writes back block (g, s) of the [16,2048,64] output.  The 64 blocks tile the output, so the array ends as
  the function whose entry (g, l, d) is the specification's kernel-side value for head (g / 8, g % 8), row l, column d.
-/
import proofs.«413024_j36490042147144_3_alg».proof.Proof.Gen.KernelIdeal.Frame
import proofs.«413024_j36490042147144_3_alg».proof.Proof.KernelBody
import proofs.«413024_j36490042147144_3_alg».proof.Proof.KernelHost
import proofs.«413024_j36490042147144_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.Body Cert.KernelIdeal.HostSide Cert.TrapAttn
open Idealize.ShloMosaic.Pipeline (Dat Cfg Window)

variable (m : (ℓ : Loc nD τ sig) → Buf (Elt Ideal) ℓ)

/-- The specification's kernel-side value at head g = 8·b + h, row l, column d, by natural-number coordinates. -/
def valAt (c : Dev nD) (g l d : Nat) (hg : g < 16) (hl : l < 2048) (hd : d < 64) : EReal :=
  kernelOut (qOf m c) (kOf m c) (vOf m c) (cOf m c) ⟨g / 8, by omega⟩ ⟨g % 8, by omega⟩ ⟨l, hl⟩ ⟨d, hd⟩

theorem valAt_congr (c : Dev nD) {g l d g' l' d' : Nat} (hg : g < 16) (hl : l < 2048) (hd : d < 64)
    (hg' : g' < 16) (hl' : l' < 2048) (hd' : d' < 64) (eg : g = g') (el : l = l') (ed : d = d') :
    valAt m c g l d hg hl hd = valAt m c g' l' d' hg' hl' hd' := by
  subst eg el ed; rfl

/-- THE OUTPUT ARRAY [16,2048,64] as one function of the arguments. -/
def G (c : Dev nD) : S16x2048x64.Idx → EReal := fun i =>
  valAt m c (i 0).val (i 1).val (i 2).val (i 0).isLt (i 1).isLt (i 2).isLt

/-! ## One grid point's block -/

/-- A body handed head g's data and query rows 512·s + r computes the specification's value at (g, 512·s + r, d). -/
theorem block_value (c : Dev nD) (g s : Nat) (hg : g < 16) (hs : s < 4)
    (x0 : FVec Ideal S1x512x64 .f32) (x1 : FVec Ideal S1x2048x64 .bf16) (x2 : FVec Ideal S1x2048x65 .bf16) (x3 : FVec Ideal S1x2048 .f32)
    (h0 : ∀ (r : Fin 512) (dd : Fin 64), x0 (ix3 0 r dd) = qOf m c ⟨g / 8, by omega⟩ ⟨g % 8, by omega⟩ ⟨s * 512 + r.val, by omega⟩ dd)
    (h1 : ∀ (j : Fin 2048) (dd : Fin 64), x1 (ix3 0 j dd) = kOf m c ⟨g / 8, by omega⟩ ⟨g % 8, by omega⟩ j dd)
    (h2 : ∀ (j : Fin 2048) (d : Fin 64), x2 (ix3 0 j ⟨d.val, by omega⟩) = vOf m c ⟨g / 8, by omega⟩ ⟨g % 8, by omega⟩ j d)
    (h2' : ∀ j : Fin 2048, x2 (ix3 0 j 64) = one)
    (h3 : ∀ j : Fin 2048, x3 (ix2 0 j) = Ideal.log (weight (cOf m c) j))
    (r : Fin 512) (d : Fin 64) :
    k0_pay1 (F := Ideal) x0 x1 x2 x3 (ix3 0 r d) = valAt m c g (s * 512 + r.val) d.val hg (by omega) d.isLt := by
  rw [pay_apply]
  unfold valAt kernelOut probK maxK scoreK pB mB sB
  simp only [h0, h1, h2, h2', h3]

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the queries' and the output's blocks move together over (head, row tile); the keys'
    and values' block is the head's; the log-weight row never moves. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 3) ≤ 15 ∧ win0_4.index t (1 : Fin 3) ≤ 3 ∧ win0_4.index t (2 : Fin 3) = 0 :=
  (by decide +kernel : ∀ t : Fin grid0.N, _)

/-- Every (head, row tile) is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- WHAT POINT t WRITES BACK is block t of `G`. -/
theorem flushed_eq (c : Dev nD) (t : Fin cfg0.N) :
    (dats (F := Ideal) m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3,
    View.ld_unit_zero (S := S1x2048x65) hz3, View.ld_unit_zero (S := S1x2048) hz2]
  obtain ⟨e00, e01, e02, e10, e11, e12, e20, e21, e22, e30, e31, hg, hs, e42⟩ := idx_facts t
  funext y
  have hy0 : (y 0).val < 1 := (y 0).isLt
  have hy1 : (y 1).val < 512 := (y 1).isLt
  have hy2 : (y 2).val < 64 := (y 2).isLt
  have ey : y = ix3 (0 : Fin 1) (⟨(y 1).val, hy1⟩ : Fin 512) (⟨(y 2).val, hy2⟩ : Fin 64) :=
    funext fun a => Fin.ext (by
      match a with
      | ⟨0, _⟩ => show (y 0).val = 0; omega
      | ⟨1, _⟩ => rfl
      | ⟨2, _⟩ => rfl)
  show k0_pay1 (F := Ideal) (iblk m c 0 t) (iblk m c 1 t) (iblk m c 2 t) (iblk m c 3 t) y = G m c (((cfg0.win 4).blk t).view.emb y)
  refine (congrArg (k0_pay1 (F := Ideal) (iblk m c 0 t) (iblk m c 1 t) (iblk m c 2 t) (iblk m c 3 t)) ey).trans ?_
  refine (block_value m c (win0_4.index t (0 : Fin 3)) (win0_4.index t (1 : Fin 3)) (by omega) (by omega)
    (iblk m c 0 t) (iblk m c 1 t) (iblk m c 2 t) (iblk m c 3 t) ?_ ?_ ?_ ?_ ?_ ⟨(y 1).val, hy1⟩ ⟨(y 2).val, hy2⟩).trans ?_
  · -- the query block: rows 512·s + r of head g
    intro r dd
    show V m c main_v14 (((cfg0.win 0).blk t).view.emb (ix3 (0 : Fin 1) r dd)) = _
    have he : ((cfg0.win 0).blk t).view.emb (ix3 (0 : Fin 1) r dd)
        = ix3 (headIx ⟨win0_4.index t (0 : Fin 3) / 8, by omega⟩ ⟨win0_4.index t (0 : Fin 3) % 8, by omega⟩)
            (⟨win0_4.index t (1 : Fin 3) * 512 + r.val, by omega⟩ : Fin 2048) dd :=
      funext fun a => Fin.ext (by
        match a with
        | ⟨0, _⟩ => show win0_0.index t (0 : Fin 3) * 1 + 1 * 0 = win0_4.index t (0 : Fin 3) / 8 * 8 + win0_4.index t (0 : Fin 3) % 8; omega
        | ⟨1, _⟩ => show win0_0.index t (1 : Fin 3) * 512 + 1 * r.val = win0_4.index t (1 : Fin 3) * 512 + r.val; omega
        | ⟨2, _⟩ => show win0_0.index t (2 : Fin 3) * 64 + 1 * dd.val = dd.val; omega)
    rw [he]
    exact queries_apply m c _ _ _ _
  · -- the key block: all of head g
    intro j dd
    show V m c main_v16 (((cfg0.win 1).blk t).view.emb (ix3 (0 : Fin 1) j dd)) = _
    have he : ((cfg0.win 1).blk t).view.emb (ix3 (0 : Fin 1) j dd)
        = ix3 (headIx ⟨win0_4.index t (0 : Fin 3) / 8, by omega⟩ ⟨win0_4.index t (0 : Fin 3) % 8, by omega⟩) j dd :=
      funext fun a => Fin.ext (by
        match a with
        | ⟨0, _⟩ => show win0_1.index t (0 : Fin 3) * 1 + 1 * 0 = win0_4.index t (0 : Fin 3) / 8 * 8 + win0_4.index t (0 : Fin 3) % 8; omega
        | ⟨1, _⟩ => show win0_1.index t (1 : Fin 3) * 2048 + 1 * j.val = j.val; omega
        | ⟨2, _⟩ => show win0_1.index t (2 : Fin 3) * 64 + 1 * dd.val = dd.val; omega)
    rw [he]
    exact keys_apply m c _ _ _ _
  · -- the value block, a value column
    intro j d
    show V m c main_v20 (((cfg0.win 2).blk t).view.emb (ix3 (0 : Fin 1) j (⟨d.val, by omega⟩ : Fin 65))) = _
    have he : ((cfg0.win 2).blk t).view.emb (ix3 (0 : Fin 1) j (⟨d.val, by omega⟩ : Fin 65))
        = ix3 (headIx ⟨win0_4.index t (0 : Fin 3) / 8, by omega⟩ ⟨win0_4.index t (0 : Fin 3) % 8, by omega⟩) j (⟨d.val, by omega⟩ : Fin 65) :=
      funext fun a => Fin.ext (by
        match a with
        | ⟨0, _⟩ => show win0_2.index t (0 : Fin 3) * 1 + 1 * 0 = win0_4.index t (0 : Fin 3) / 8 * 8 + win0_4.index t (0 : Fin 3) % 8; omega
        | ⟨1, _⟩ => show win0_2.index t (1 : Fin 3) * 2048 + 1 * j.val = j.val; omega
        | ⟨2, _⟩ => show win0_2.index t (2 : Fin 3) * 65 + 1 * d.val = d.val; omega)
    rw [he]
    exact values_apply_lt m c _ _ _ _
  · -- the value block, the column of ones
    intro j
    show V m c main_v20 (((cfg0.win 2).blk t).view.emb (ix3 (0 : Fin 1) j (64 : Fin 65))) = _
    have he : ((cfg0.win 2).blk t).view.emb (ix3 (0 : Fin 1) j (64 : Fin 65))
        = ix3 (headIx ⟨win0_4.index t (0 : Fin 3) / 8, by omega⟩ ⟨win0_4.index t (0 : Fin 3) % 8, by omega⟩) j (64 : Fin 65) :=
      funext fun a => Fin.ext (by
        match a with
        | ⟨0, _⟩ => show win0_2.index t (0 : Fin 3) * 1 + 1 * 0 = win0_4.index t (0 : Fin 3) / 8 * 8 + win0_4.index t (0 : Fin 3) % 8; omega
        | ⟨1, _⟩ => show win0_2.index t (1 : Fin 3) * 2048 + 1 * j.val = j.val; omega
        | ⟨2, _⟩ => show win0_2.index t (2 : Fin 3) * 65 + 1 * 64 = 64; omega)
    rw [he]
    exact values_apply_last m c _ _ _
  · -- the log-weight row
    intro j
    show V m c main_v13 (((cfg0.win 3).blk t).view.emb (ix2 (0 : Fin 1) j)) = _
    have he : ((cfg0.win 3).blk t).view.emb (ix2 (0 : Fin 1) j) = ix2 (0 : Fin 1) j :=
      funext fun a => Fin.ext (by
        match a with
        | ⟨0, _⟩ => show win0_3.index t (0 : Fin 2) * 1 + 1 * 0 = 0; omega
        | ⟨1, _⟩ => show win0_3.index t (1 : Fin 2) * 2048 + 1 * j.val = j.val; omega)
    rw [he]
    exact logw_apply m c j
  · -- the block's entry is the array's entry at the embedded index
    show valAt m c _ _ _ _ _ _ = valAt m c _ _ _ _ _ _
    refine valAt_congr m c _ _ _ _ _ _ ?_ ?_ ?_
    · show win0_4.index t (0 : Fin 3) = win0_4.index t (0 : Fin 3) * 1 + 1 * (y 0).val; omega
    · show win0_4.index t (1 : Fin 3) * 512 + (y 1).val = win0_4.index t (1 : Fin 3) * 512 + 1 * (y 1).val; omega
    · show (y 2).val = win0_4.index t (2 : Fin 3) * 64 + 1 * (y 2).val; omega

/-! ## The blocks tile the output -/

theorem mem_blk (t : Fin cfg0.N) (i : S16x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v21).slice (win0_4.rect t)).set ↔ _
  rw [View.set_slice_whole, Rect.mem_set_unit]
  exact Iff.rfl

/-- Entry (g, l, d) lies in the block of point (g, l / 512). -/
theorem cover (i : S16x2048x64.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE OUTPUT ARRAY after the run is `G`. -/
theorem final (c : Dev nD) : (dats (F := Ideal) m 0 c).arrAt 4 cfg0.N = G m c :=
  (dats m 0 c).arrAt_eq_of_cover 4 (G m c) (fun t _ => flushed_eq m c t) cover

end Cert.KernelIdeal.ArrayValue

end
-- ==== Proof.KernelRun.lean ====
/-
  The kernel program's run, with its result named.

  After the region the program reshapes the [16,2048,64] output to [2,8,2048,64]: entry (b, h, l, d) of the result is
  entry (8·b + h, l, d) of the region's output array, which is the specification's kernel-side value for head (b, h),
  row l, column d.  The argument arrays end unchanged.
-/
import proofs.«413024_j36490042147144_3_alg».proof.Proof.Gen.KernelIdeal.Frame
import proofs.«413024_j36490042147144_3_alg».proof.Proof.KernelArray
import proofs.«413024_j36490042147144_3_alg».proof.Proof.KernelHost
import proofs.«413024_j36490042147144_3_alg».proof.Proof.Spec
import Idealize.ShloMosaic.Lib.StableHlo.Run
import Idealize.ShloMosaic.Lib.ValueIdx
import Idealize.ShloMosaic.Lib.Pipeline.Value

noncomputable section

namespace Cert.KernelIdeal.RunValue

open Idealize.ShloMosaic Idealize.ShloMosaic.TcCoe Idealize.ShloMosaic.ValueIdx Idealize.SL.Sem Idealize.ShloMosaic.StableHlo
open Cert.KernelIdeal Cert.KernelIdeal.Gen Cert.KernelIdeal.HostSide Cert.KernelIdeal.ArrayValue Cert.TrapAttn

variable (m : (ℓ : Loc nD τ sig) → Buf (Elt Ideal) ℓ) (ρ : Dev nD → PrngReg)

/-- The result array [2,8,2048,64]: the specification's kernel-side value, entry by entry. -/
def result (c : Dev nD) : S2x8x2048x64.Idx → EReal := fun i =>
  kernelOut (qOf m c) (kOf m c) (vOf m c) (cOf m c) ⟨(i 0).val, (i 0).isLt⟩ ⟨(i 1).val, (i 1).isLt⟩ ⟨(i 2).val, (i 2).isLt⟩ ⟨(i 3).val, (i 3).isLt⟩

/-- Head 8·b + h of the output array is head (b, h). -/
theorem valAt_head (c : Dev nD) (b : Fin 2) (h : Fin 8) (l : Fin 2048) (d : Fin 64) :
    valAt m c (b.val * 8 + h.val) l.val d.val (by omega) l.isLt d.isLt
      = kernelOut (qOf m c) (kOf m c) (vOf m c) (cOf m c) b h l d := by
  unfold valAt
  have eb : (⟨(b.val * 8 + h.val) / 8, by omega⟩ : Fin 2) = b := Fin.ext (by show (b.val * 8 + h.val) / 8 = b.val; omega)
  have eh : (⟨(b.val * 8 + h.val) % 8, by omega⟩ : Fin 8) = h := Fin.ext (by show (b.val * 8 + h.val) % 8 = h.val; omega)
  rw [eb, eh]

/-- The reshape after the region, applied to the region's output array, is the result. -/
theorem tail_eq (c : Dev nD) :
    (Pipeline.afterTail₀ cfgs (dats (F := Ideal) m) 0 (V0 m) [hostOps1] c main_v22 : S2x8x2048x64.Idx → EReal) = result m c := by
  unfold Pipeline.afterTail₀
  show StableHlo.after hostOps1 _ (Proc.devRef .tc main_v22) = _
  after_results
  have hA : Pipeline.withArrays (cfgs 0).spec c (V0 m c) (fun w => (dats (F := Ideal) m 0 c).arrAt w (cfgs 0).N) (Proc.devRef .tc main_v21) = G m c :=
    (Pipeline.withArrays_arr spec0 launch0.win.arr_inj c _ _ 4).trans (final m c)
  show (fun i => shapeCast S2x8x2048x64 (Pipeline.withArrays (cfgs 0).spec c (V0 m c) (fun w => (dats (F := Ideal) m 0 c).arrAt w (cfgs 0).N) (Proc.devRef .tc main_v21))
      shapeCasts_S16x2048x64_S2x8x2048x64 i) = _
  rw [hA]
  funext i
  obtain ⟨b, h, l, d, rfl⟩ : ∃ (b : Fin 2) (h : Fin 8) (l : Fin 2048) (d : Fin 64), i = ix4 b h l d := ⟨i 0, i 1, i 2, i 3, eq_ix4 i⟩
  show shapeCast S2x8x2048x64 (G m c) shapeCasts_S16x2048x64_S2x8x2048x64 (ix4 b h l d) = kernelOut (qOf m c) (kOf m c) (vOf m c) (cOf m c) b h l d
  rw [shapeCast_apply (G m c) shapeCasts_S16x2048x64_S2x8x2048x64 (ix4 b h l d) (ix3 (headIx b h) l d) (by
    rw [Shape.rowMajor_val_four, Shape.rowMajor_val_three]
    rfl)]
  exact valAt_head m c b h l d

/-- THE RUN: every weakly fair execution of the kernel program terminates with the result array at `result` and the
    argument arrays as launched. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v22 (Pipeline.mem_restRefs_of main_v22 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.lean ====
/-
  Attention with trapezoid-rule weights over the key axis: the kernel against its reference, over the extended reals.

  For a head (b, h) and a query row l let s_j be the scores against the 2048 keys (the row of q·kᵀ divided by 8), M their
  maximum, e_j = exp (s_j - M), and δ_i = |c (i+1) - c i| the width of interval i of the coordinate vector c.  The
  reference normalises e by the trapezoid-rule denominator D = ∑ i, ½ δ_i (e (i+1) + e i) and returns
  ½ (∑ i, (e (i+1) / D) (δ_i v (i+1)) + ∑ i, (e i / D) (δ_i v i)).  The kernel gives key j the weight
  w_j = ½ (δ (j-1) + δ j) (a missing neighbour counts 0), folds log w_j into the exponent, multiplies the probabilities
  p_j = exp ((s_j - M) + log w_j) with the values and with an appended column of ones in one product, and divides.
  Each key ends interval j - 1 and begins interval j, so ∑ j, w_j f j = ∑ i, ½ δ_i (f (i+1) + f i): both programs compute
  (∑ j, w_j e_j v_j) / (∑ j, w_j e_j).

  The common denominator vanishes exactly when every width does, that is when c is constant; there the reference divides
  by zero, and the precondition keeps the coordinates from being constant.  With finite inputs every intermediate is a
  real number except log w_j at w_j = 0, which is -∞ and whose exponential is 0 = w_j · exp (s_j - M).

  The pieces: the specification of both sides (Spec), the law that joins them (SpecLaw), the reference's result read
  at an index (RefRead, over the generated run), what the precondition says of the inputs (PreRead), and the kernel's
  side (KernelBody: the body's arithmetic at an index; KernelHost: the arrays the region is launched on; KernelArray: the
  output array from the 64 blocks; KernelRun: the run with its result named).  The frames of the two kernel programs are
  the generated ones, the reference's frame is its generated run, and no idealization rewrite was applied.
-/
import proofs.«413024_j36490042147144_3_alg».proof.Defs
import proofs.«413024_j36490042147144_3_alg».proof.Proof.Gen.Kernel
import proofs.«413024_j36490042147144_3_alg».proof.Proof.Gen.Kernel.Skeleton
import proofs.«413024_j36490042147144_3_alg».proof.Proof.Gen.Kernel.Launch
import proofs.«413024_j36490042147144_3_alg».proof.Proof.Gen.Kernel.Points
import proofs.«413024_j36490042147144_3_alg».proof.Proof.Gen.Kernel.Frame
import proofs.«413024_j36490042147144_3_alg».proof.Proof.Gen.KernelIdeal
import proofs.«413024_j36490042147144_3_alg».proof.Proof.Gen.KernelIdeal.Skeleton
import proofs.«413024_j36490042147144_3_alg».proof.Proof.Gen.KernelIdeal.Launch
import proofs.«413024_j36490042147144_3_alg».proof.Proof.Gen.KernelIdeal.Points
import proofs.«413024_j36490042147144_3_alg».proof.Proof.Gen.KernelIdeal.Frame
import proofs.«413024_j36490042147144_3_alg».proof.Proof.Gen.ReferenceIdeal
import proofs.«413024_j36490042147144_3_alg».proof.Proof.Gen.ReferenceIdeal.Run
import proofs.«413024_j36490042147144_3_alg».proof.Proof.Gen.ReferenceIdeal.Read
import proofs.«413024_j36490042147144_3_alg».proof.Proof.Gen.Pre_finite_inputs
import proofs.«413024_j36490042147144_3_alg».proof.Proof.Spec
import proofs.«413024_j36490042147144_3_alg».proof.Proof.SpecLaw
import proofs.«413024_j36490042147144_3_alg».proof.Proof.RefRead
import proofs.«413024_j36490042147144_3_alg».proof.Proof.PreRead
import proofs.«413024_j36490042147144_3_alg».proof.Proof.KernelRun
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the specification's kernel-side value in the result: the kernel's by its run, the reference's
    because its result, read entry by entry, is the specification's reference-side value, and the two sides agree on
    finite inputs whose coordinates are not constant. -/
theorem algebraic : Cert.algebraic_KernelIdeal_ReferenceIdeal := by
  intro m ρ m' ρ' hpre hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2]
  obtain ⟨hq, hk, hv, hc, hne⟩ := Cert.Pre_finite_inputs.Read.of_pre _ _ _ _ (hpre c)
  funext i
  obtain ⟨b, h, l, d, rfl⟩ : ∃ (b : Fin 2) (h : Fin 8) (l : Fin 2048) (d : Fin 64), i = ix4 b h l d := ⟨i 0, i 1, i 2, i 3, eq_ix4 i⟩
  rw [Cert.ReferenceIdeal.RefValue.out_apply]
  exact (Cert.TrapAttn.kernelOut_eq_refOut _ _ _ _ hq hk hv hc hne b h l d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
